-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x520 : Shape := ⟨2, ![8192, 520]⟩
abbrev S8x256 : Shape := ⟨2, ![8, 256]⟩
abbrev S256 : Shape := ⟨1, ![256]⟩
abbrev S256x257 : Shape := ⟨2, ![256, 257]⟩
abbrev S257 : Shape := ⟨1, ![257]⟩
abbrev S265x256 : Shape := ⟨2, ![265, 256]⟩
abbrev S256x30 : Shape := ⟨2, ![256, 30]⟩
abbrev S30 : Shape := ⟨1, ![30]⟩
abbrev S_ : Shape := ⟨0, ![]⟩

class Facts : Prop where
  bcast_S_S8192x520 : S_.BroadcastsInDim S8192x520 (![] : Fin 0 → Fin S8192x520.rank)
  reducesTo_S8192x520_S_d0_1 : S8192x520.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S256x257 : S_.BroadcastsInDim S256x257 (![] : Fin 0 → Fin S256x257.rank)
  reducesTo_S256x257_S_d0_1 : S256x257.ReducesTo [0, 1] S_
  bcast_S_S257 : S_.BroadcastsInDim S257 (![] : Fin 0 → Fin S257.rank)
  reducesTo_S257_S_d0 : S257.ReducesTo [0] S_
  bcast_S_S265x256 : S_.BroadcastsInDim S265x256 (![] : Fin 0 → Fin S265x256.rank)
  reducesTo_S265x256_S_d0_1 : S265x256.ReducesTo [0, 1] S_
  bcast_S_S256x30 : S_.BroadcastsInDim S256x30 (![] : Fin 0 → Fin S256x30.rank)
  reducesTo_S256x30_S_d0_1 : S256x30.ReducesTo [0, 1] S_
  bcast_S_S30 : S_.BroadcastsInDim S30 (![] : Fin 0 → Fin S30.rank)
  reducesTo_S30_S_d0 : S30.ReducesTo [0] S_

variable [Facts]

def fn_part2 {F : FTy → Type} [FloatOps F] (main_arg7 : FVec F S256x30 .f32) (main_arg8 : FVec F S30 .f32) (main_v33 : IVec S_ 1) : IVec S_ 1 :=
  let main_v34 : FVec F S256x30 .f32 := Host.absf main_arg7
  let main_cst_12 : FVec F S_ .f32 := constant S_ .f32 0x7F800000#32
  let main_v35 : FVec F S256x30 .f32 := broadcastInDim S256x30 ![] bcast_S_S256x30 main_cst_12
  let main_v36 : IVec S256x30 1 := cmpf .olt main_v34 main_v35
  let main_c_13 : IVec S_ 1 := constantI S_ 1 1#1
  let main_v37 : IVec S_ 1 := (fun x v => Host.reduce IntOp.andi x v reducesTo_S256x30_S_d0_1 h_S_) main_v36 main_c_13
  let main_v38 : IVec S_ 1 := andi main_v33 main_v37
  let main_v39 : FVec F S30 .f32 := Host.absf main_arg8
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  main_v43

def fn_part1 {F : FTy → Type} [FloatOps F] (main_arg4 : FVec F S257 .f32) (main_arg5 : FVec F S265x256 .f32) (main_arg6 : FVec F S256 .f32) (main_arg7 : FVec F S256x30 .f32) (main_arg8 : FVec F S30 .f32) (main_v13 : IVec S_ 1) (main_v16 : IVec S256x257 1) : IVec S_ 1 :=
  let main_c_5 : IVec S_ 1 := constantI S_ 1 1#1
  let main_v17 : IVec S_ 1 := (fun x v => Host.reduce IntOp.andi x v reducesTo_S256x257_S_d0_1 h_S_) main_v16 main_c_5
  let main_v18 : IVec S_ 1 := andi main_v13 main_v17
  let main_v19 : FVec F S257 .f32 := Host.absf main_arg4
  let main_cst_6 : FVec F S_ .f32 := constant S_ .f32 0x7F800000#32
  let main_v20 : FVec F S257 .f32 := broadcastInDim S257 ![] bcast_S_S257 main_cst_6
  let main_v21 : IVec S257 1 := cmpf .olt main_v19 main_v20
  let main_c_7 : IVec S_ 1 := constantI S_ 1 1#1
  let main_v22 : IVec S_ 1 := (fun x v => Host.reduce IntOp.andi x v reducesTo_S257_S_d0 h_S_) main_v21 main_c_7
  let main_v23 : IVec S_ 1 := andi main_v18 main_v22
  let main_v24 : FVec F S265x256 .f32 := Host.absf main_arg5
  let main_cst_8 : FVec F S_ .f32 := constant S_ .f32 0x7F800000#32
  let main_v25 : FVec F S265x256 .f32 := broadcastInDim S265x256 ![] bcast_S_S265x256 main_cst_8
  let main_v26 : IVec S265x256 1 := cmpf .olt main_v24 main_v25
  let main_c_9 : IVec S_ 1 := constantI S_ 1 1#1
  let main_v27 : IVec S_ 1 := (fun x v => Host.reduce IntOp.andi x v reducesTo_S265x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S8192x520 .f32) (main_arg1 : FVec F S8x256 .f32) (main_arg2 : FVec F S256 .f32) (main_arg3 : FVec F S256x257 .f32) (main_arg4 : FVec F S257 .f32) (main_arg5 : FVec F S265x256 .f32) (main_arg6 : FVec F S256 .f32) (main_arg7 : FVec F S256x30 .f32) (main_arg8 : FVec F S30 .f32) : IVec S_ 1 :=
  let main_v0 : FVec F S8192x520 .f32 := Host.absf main_arg0
  let main_cst : FVec F S_ .f32 := constant S_ .f32 0x7F800000#32
  let main_v1 : FVec F S8192x520 .f32 := broadcastInDim S8192x520 ![] bcast_S_S8192x520 main_cst
  let main_v2 : IVec S8192x520 1 := cmpf .olt main_v0 main_v1
  let main_c : IVec S_ 1 := constantI S_ 1 1#1
  let main_v3 : IVec S_ 1 := (fun x v => Host.reduce IntOp.andi x v reducesTo_S8192x520_S_d0_1 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x257 .f32 := Host.absf main_arg3
  let main_cst_4 : FVec F S_ .f32 := constant S_ .f32 0x7F800000#32
  let main_v15 : FVec F S256x257 .f32 := broadcastInDim S256x257 ![] bcast_S_S256x257 main_cst_4
  let main_v16 : IVec S256x257 1 := cmpf .olt main_v14 main_v15
  fn_part1 (F := F) main_arg4 main_arg5 main_arg6 main_arg7 main_arg8 main_v13 main_v16
-- ==== Kernel.lean ====
abbrev S8192x520 : Shape := ⟨2, ![8192, 520]⟩
abbrev S8x256 : Shape := ⟨2, ![8, 256]⟩
abbrev S256 : Shape := ⟨1, ![256]⟩
abbrev S256x257 : Shape := ⟨2, ![256, 257]⟩
abbrev S257 : Shape := ⟨1, ![257]⟩
abbrev S265x256 : Shape := ⟨2, ![265, 256]⟩
abbrev S256x30 : Shape := ⟨2, ![256, 30]⟩
abbrev S30 : Shape := ⟨1, ![30]⟩
abbrev S8192x8 : Shape := ⟨2, ![8192, 8]⟩
abbrev S8192x512 : Shape := ⟨2, ![8192, 512]⟩
abbrev S8192x64x8 : Shape := ⟨3, ![8192, 64, 8]⟩
abbrev S1x256 : Shape := ⟨2, ![1, 256]⟩
abbrev S1x257 : Shape := ⟨2, ![1, 257]⟩
abbrev S1x30 : Shape := ⟨2, ![1, 30]⟩
abbrev S8192x30 : Shape := ⟨2, ![8192, 30]⟩
abbrev S64x8 : Shape := ⟨2, ![64, 8]⟩
abbrev S64x64x8 : Shape := ⟨3, ![64, 64, 8]⟩
abbrev S64x30 : Shape := ⟨2, ![64, 30]⟩
abbrev S64x64 : Shape := ⟨2, ![64, 64]⟩
abbrev S4096x8 : Shape := ⟨2, ![4096, 8]⟩
abbrev S4096x256 : Shape := ⟨2, ![4096, 256]⟩
abbrev S4096x257 : Shape := ⟨2, ![4096, 257]⟩
abbrev S64x64x257 : Shape := ⟨3, ![64, 64, 257]⟩
abbrev S64x64x1 : Shape := ⟨3, ![64, 64, 1]⟩
abbrev S64x257 : Shape := ⟨2, ![64, 257]⟩
abbrev S64x265 : Shape := ⟨2, ![64, 265]⟩
abbrev S64x256 : Shape := ⟨2, ![64, 256]⟩

abbrev nBuf : Space → Nat
  | .hbm => 17
  | .vmem => 14
  | .smem => 0
  | _ => 0

abbrev bufTy : (tb : Table) → Fin (tcTables nBuf tb) → BufTy
  | .hbm, ⟨0, _⟩ => ⟨S8192x520, .f32⟩
  | .hbm, ⟨1, _⟩ => ⟨S8x256, .f32⟩
  | .hbm, ⟨2, _⟩ => ⟨S256, .f32⟩
  | .hbm, ⟨3, _⟩ => ⟨S256x257, .f32⟩
  | .hbm, ⟨4, _⟩ => ⟨S257, .f32⟩
  | .hbm, ⟨5, _⟩ => ⟨S265x256, .f32⟩
  | .hbm, ⟨6, _⟩ => ⟨S256, .f32⟩
  | .hbm, ⟨7, _⟩ => ⟨S256x30, .f32⟩
  | .hbm, ⟨8, _⟩ => ⟨S30, .f32⟩
  | .hbm, ⟨9, _⟩ => ⟨S8192x8, .f32⟩
  | .hbm, ⟨10, _⟩ => ⟨S8192x512, .f32⟩
  | .hbm, ⟨11, _⟩ => ⟨S8192x64x8, .f32⟩
  | .hbm, ⟨12, _⟩ => ⟨S1x256, .f32⟩
  | .hbm, ⟨13, _⟩ => ⟨S1x257, .f32⟩
  | .hbm, ⟨14, _⟩ => ⟨S1x256, .f32⟩
  | .hbm, ⟨15, _⟩ => ⟨S1x30, .f32⟩
  | .hbm, ⟨16, _⟩ => ⟨S8192x30, .f32⟩
  | .local _ .vmem, ⟨0, _⟩ => ⟨S64x8, .f32⟩
  | .local _ .vmem, ⟨1, _⟩ => ⟨S64x8, .f32⟩
  | .local _ .vmem, ⟨2, _⟩ => ⟨S64x64x8, .f32⟩
  | .local _ .vmem, ⟨3, _⟩ => ⟨S64x64x8, .f32⟩
  | .local _ .vmem, ⟨4, _⟩ => ⟨S8x256, .f32⟩
  | .local _ .vmem, ⟨5, _⟩ => ⟨S1x256, .f32⟩
  | .local _ .vmem, ⟨6, _⟩ => ⟨S256x257, .f32⟩
  | .local _ .vmem, ⟨7, _⟩ => ⟨S1x257, .f32⟩
  | .local _ .vmem, ⟨8, _⟩ => ⟨S265x256, .f32⟩
  | .local _ .vmem, ⟨9, _⟩ => ⟨S1x256, .f32⟩
  | .local _ .vmem, ⟨10, _⟩ => ⟨S256x30, .f32⟩
  | .local _ .vmem, ⟨11, _⟩ => ⟨S1x30, .f32⟩
  | .local _ .vmem, ⟨12, _⟩ => ⟨S64x30, .f32⟩
  | .local _ .vmem, ⟨13, _⟩ => ⟨S64x30, .f32⟩
  | _, _ => ⟨S8192x520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S265x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x30 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S8192x520_S8192x8_0_0 : S8192x520.Slices ![0, 0] S8192x8
  slices_S8192x520_S8192x512_0_8 : S8192x520.Slices ![0, 8] S8192x512
  shapeCasts_S8192x512_S8192x64x8 : S8192x512.ShapeCasts S8192x64x8
  shapeCasts_S256_S1x256 : S256.ShapeCasts S1x256
  shapeCasts_S257_S1x257 : S257.ShapeCasts S1x257
  shapeCasts_S30_S1x30 : S30.ShapeCasts S1x30
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S64x64x8_S64x64x8_0_0_0 : ∀ a, (![0, 0, 0] : Fin 3 → Nat) a + S64x64x8.size a ≤ S64x64x8.size a
  h_S64x64x8 : 0 < S64x64x8.numel
  shapeCasts_S64x64x8_S64x64x8 : S64x64x8.ShapeCasts S64x64x8
  natLt_1_32 : 1 < 32
  reduces_S64x64x8_S64x64 : S64x64x8.Reduces [2] S64x64
  shapeCasts_S64x64x8_S4096x8 : S64x64x8.ShapeCasts S4096x8
  inb_S8x256_S8x256_0_0 : ∀ a, (![0, 0] : Fin 2 → Nat) a + S8x256.size a ≤ S8x256.size a
  h_S8x256 : 0 < S8x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x257_S256x257_0_0 : ∀ a, (![0, 0] : Fin 2 → Nat) a + S256x257.size a ≤ S256x257.size a
  h_S256x257 : 0 < S256x257.numel
  inb_S1x257_S1x257_0_0 : ∀ a, (![0, 0] : Fin 2 → Nat) a + S1x257.size a ≤ S1x257.size a
  h_S1x257 : 0 < S1x257.numel
  shapeCasts_S1x257_S1x257 : S1x257.ShapeCasts S1x257
  broadcasts_S1x257_S4096x257 : S1x257.Broadcasts S4096x257
  shapeCasts_S4096x257_S64x64x257 : S4096x257.ShapeCasts S64x64x257
  shapeCasts_S64x64_S64x64x1 : S64x64.ShapeCasts S64x64x1
  broadcasts_S64x64x1_S64x64x257 : S64x64x1.Broadcasts S64x64x257
  reduces_S64x64x257_S64x257 : S64x64x257.Reduces [1] S64x257
  concatenates_S64x8_S64x257_S64x265_d1 : Shape.Concatenates [S64x8, S64x257] S64x265 1
  inb_S265x256_S265x256_0_0 : ∀ a, (![0, 0] : Fin 2 → Nat) a + S265x256.size a ≤ S265x256.size a
  h_S265x256 : 0 < S265x256.numel
  broadcasts_S1x256_S64x256 : S1x256.Broadcasts S64x256
  inb_S256x30_S256x30_0_0 : ∀ a, (![0, 0] : Fin 2 → Nat) a + S256x30.size a ≤ S256x30.size a
  h_S256x30 : 0 < S256x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S64x30 : S1x30.Broadcasts S64x30
  inb_S64x30_S64x30_0_0 : ∀ a, (![0, 0] : Fin 2 → Nat) a + S64x30.size a ≤ S64x30.size a
  h_S64x30 : 0 < S64x30.numel
  dot_S4096x8_S8x256_S4096x256_1_0_0_1_n_n_wf : DotDims.WF S4096x8 S8x256 S4096x256 [1] [0] [0] [1] [] []
  dot_S4096x256_S256x257_S4096x257_1_0_0_1_n_n_wf : DotDims.WF S4096x256 S256x257 S4096x257 [1] [0] [0] [1] [] []
  dot_S64x265_S265x256_S64x256_1_0_0_1_n_n_wf : DotDims.WF S64x265 S265x256 S64x256 [1] [0] [0] [1] [] []
  dot_S64x256_S256x30_S64x30_1_0_0_1_n_n_wf : DotDims.WF S64x256 S256x30 S64x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8.size a ≤ S8192x8.size a
  hwx0_0 : ∀ i : grid0.Coords, EltTy.bits .f32 = 32 ∨ (Rect.block (s := S8192x8) S64x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x8.size a ≤ S8192x64x8.size a
  hwx0_1 : ∀ i : grid0.Coords, EltTy.bits .f32 = 32 ∨ (Rect.block (s := S8192x64x8) S64x64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x257.size a ≤ S256x257.size a
  hwx0_4 : ∀ i : grid0.Coords, EltTy.bits .f32 = 32 ∨ (Rect.block (s := S256x257) S256x257.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x257.size a ≤ S1x257.size a
  hwx0_5 : ∀ i : grid0.Coords, EltTy.bits .f32 = 32 ∨ (Rect.block (s := S1x257) S1x257.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S265x256.size a ≤ S265x256.size a
  hwx0_6 : ∀ i : grid0.Coords, EltTy.bits .f32 = 32 ∨ (Rect.block (s := S265x256) S265x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x30.size a ≤ S256x30.size a
  hwx0_8 : ∀ i : grid0.Coords, EltTy.bits .f32 = 32 ∨ (Rect.block (s := S256x30) S256x30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x30.size a ≤ S1x30.size a
  hwx0_9 : ∀ i : grid0.Coords, EltTy.bits .f32 = 32 ∨ (Rect.block (s := S1x30) S1x30.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x30.size a ≤ S8192x30.size a
  hwx0_10 : ∀ i : grid0.Coords, EltTy.bits .f32 = 32 ∨ (Rect.block (s := S8192x30) S64x30.size (cc0_transform_10 i) (hinb0_10 i)).WholeWords (EltTy.packing .f32)

variable [Facts₀]

def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf
def dot_S4096x256_S256x257_S4096x257_1_0_0_1_n_n : DotDims S4096x256 S256x257 S4096x257 where
  lhsContracting := [1]
  rhsContracting := [0]
  lhsNonContracting := [0]
  rhsNonContracting := [1]
  lhsBatch := []
  rhsBatch := []
  wf := dot_S4096x256_S256x257_S4096x257_1_0_0_1_n_n_wf
def dot_S64x265_S265x256_S64x256_1_0_0_1_n_n : DotDims S64x265 S265x256 S64x256 where
  lhsContracting := [1]
  rhsContracting := [0]
  lhsNonContracting := [0]
  rhsNonContracting := [1]
  lhsBatch := []
  rhsBatch := []
  wf := dot_S64x265_S265x256_S64x256_1_0_0_1_n_n_wf
def dot_S64x256_S256x30_S64x30_1_0_0_1_n_n : DotDims S64x256 S256x30 S64x30 where
  lhsContracting := [1]
  rhsContracting := [0]
  lhsNonContracting := [0]
  rhsNonContracting := [1]
  lhsBatch := []
  rhsBatch := []
  wf := dot_S64x256_S256x30_S64x30_1_0_0_1_n_n_wf

abbrev win0_0 : Pipeline.Window sig grid0 :=
  Pipeline.Window.ofSpec (Memref.whole main_v0) S64x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x257.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x257.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S265x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x30.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S64x30.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x520 : Shape := ⟨2, ![8192, 520]⟩
abbrev S8x256 : Shape := ⟨2, ![8, 256]⟩
abbrev S256 : Shape := ⟨1, ![256]⟩
abbrev S256x257 : Shape := ⟨2, ![256, 257]⟩
abbrev S257 : Shape := ⟨1, ![257]⟩
abbrev S265x256 : Shape := ⟨2, ![265, 256]⟩
abbrev S256x30 : Shape := ⟨2, ![256, 30]⟩
abbrev S30 : Shape := ⟨1, ![30]⟩
abbrev S8192x8 : Shape := ⟨2, ![8192, 8]⟩
abbrev S8192x512 : Shape := ⟨2, ![8192, 512]⟩
abbrev S8192x64x8 : Shape := ⟨3, ![8192, 64, 8]⟩
abbrev S_ : Shape := ⟨0, ![]⟩
abbrev S8192x64 : Shape := ⟨2, ![8192, 64]⟩
abbrev S8192x64x256 : Shape := ⟨3, ![8192, 64, 256]⟩
abbrev S1x1x256 : Shape := ⟨3, ![1, 1, 256]⟩
abbrev S8192x64x257 : Shape := ⟨3, ![8192, 64, 257]⟩
abbrev S1x1x257 : Shape := ⟨3, ![1, 1, 257]⟩
abbrev S8192x64x1 : Shape := ⟨3, ![8192, 64, 1]⟩
abbrev S8192x257 : Shape := ⟨2, ![8192, 257]⟩
abbrev S8192x265 : Shape := ⟨2, ![8192, 265]⟩
abbrev S8192x256 : Shape := ⟨2, ![8192, 256]⟩
abbrev S1x256 : Shape := ⟨2, ![1, 256]⟩
abbrev S8192x30 : Shape := ⟨2, ![8192, 30]⟩
abbrev S1x30 : Shape := ⟨2, ![1, 30]⟩

abbrev nBuf : Space → Nat
  | .hbm => 50
  | .vmem => 0
  | .smem => 0
  | _ => 0

abbrev bufTy : (tb : Table) → Fin (tcTables nBuf tb) → BufTy
  | .hbm, ⟨0, _⟩ => ⟨S8192x520, .f32⟩
  | .hbm, ⟨1, _⟩ => ⟨S8x256, .f32⟩
  | .hbm, ⟨2, _⟩ => ⟨S256, .f32⟩
  | .hbm, ⟨3, _⟩ => ⟨S256x257, .f32⟩
  | .hbm, ⟨4, _⟩ => ⟨S257, .f32⟩
  | .hbm, ⟨5, _⟩ => ⟨S265x256, .f32⟩
  | .hbm, ⟨6, _⟩ => ⟨S256, .f32⟩
  | .hbm, ⟨7, _⟩ => ⟨S256x30, .f32⟩
  | .hbm, ⟨8, _⟩ => ⟨S30, .f32⟩
  | .hbm, ⟨9, _⟩ => ⟨S8192x8, .f32⟩
  | .hbm, ⟨10, _⟩ => ⟨S8192x512, .f32⟩
  | .hbm, ⟨11, _⟩ => ⟨S8192x64x8, .f32⟩
  | .hbm, ⟨12, _⟩ => ⟨S_, .f32⟩
  | .hbm, ⟨13, _⟩ => ⟨S8192x64x8, .f32⟩
  | .hbm, ⟨14, _⟩ => ⟨S8192x64x8, .i1⟩
  | .hbm, ⟨15, _⟩ => ⟨S_, .i1⟩
  | .hbm, ⟨16, _⟩ => ⟨S8192x64, .i1⟩
  | .hbm, ⟨17, _⟩ => ⟨S8192x64, .i1⟩
  | .hbm, ⟨18, _⟩ => ⟨S8192x64x256, .f32⟩
  | .hbm, ⟨19, _⟩ => ⟨S1x1x256, .f32⟩
  | .hbm, ⟨20, _⟩ => ⟨S8192x64x256, .f32⟩
  | .hbm, ⟨21, _⟩ => ⟨S8192x64x256, .f32⟩
  | .hbm, ⟨22, _⟩ => ⟨S_, .f32⟩
  | .hbm, ⟨23, _⟩ => ⟨S8192x64x256, .f32⟩
  | .hbm, ⟨24, _⟩ => ⟨S8192x64x256, .f32⟩
  | .hbm, ⟨25, _⟩ => ⟨S8192x64x257, .f32⟩
  | .hbm, ⟨26, _⟩ => ⟨S1x1x257, .f32⟩
  | .hbm, ⟨27, _⟩ => ⟨S8192x64x257, .f32⟩
  | .hbm, ⟨28, _⟩ => ⟨S8192x64x257, .f32⟩
  | .hbm, ⟨29, _⟩ => ⟨S_, .f32⟩
  | .hbm, ⟨30, _⟩ => ⟨S8192x64x257, .f32⟩
  | .hbm, ⟨31, _⟩ => ⟨S8192x64x257, .f32⟩
  | .hbm, ⟨32, _⟩ => ⟨S8192x64x1, .i1⟩
  | .hbm, ⟨33, _⟩ => ⟨S8192x64x1, .f32⟩
  | .hbm, ⟨34, _⟩ => ⟨S8192x64x257, .f32⟩
  | .hbm, ⟨35, _⟩ => ⟨S8192x64x257, .f32⟩
  | .hbm, ⟨36, _⟩ => ⟨S_, .f32⟩
  | .hbm, ⟨37, _⟩ => ⟨S8192x257, .f32⟩
  | .hbm, ⟨38, _⟩ => ⟨S8192x265, .f32⟩
  | .hbm, ⟨39, _⟩ => ⟨S8192x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S8192x30, .f32⟩
  | .hbm, ⟨47, _⟩ => ⟨S1x30, .f32⟩
  | .hbm, ⟨48, _⟩ => ⟨S8192x30, .f32⟩
  | .hbm, ⟨49, _⟩ => ⟨S8192x30, .f32⟩
  | _, _ => ⟨S8192x520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call2_cst : Ref sig .tc := ⟨.hbm, 43, rfl⟩
abbrev main_call2_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  slices_S8192x520_S8192x8_0_0 : S8192x520.Slices ![0, 0] S8192x8
  slices_S8192x520_S8192x512_0_8 : S8192x520.Slices ![0, 8] S8192x512
  shapeCasts_S8192x512_S8192x64x8 : S8192x512.ShapeCasts S8192x64x8
  bcast_S_S8192x64x8 : S_.BroadcastsInDim S8192x64x8 (![] : Fin 0 → Fin S8192x64x8.rank)
  reducesTo_S8192x64x8_S8192x64_d2 : S8192x64x8.ReducesTo [2] S8192x64
  h_S_ : 0 < S_.numel
  bcast_S256_S1x1x256_2 : S256.BroadcastsInDim S1x1x256 (![2] : Fin 1 → Fin S1x1x256.rank)
  bcast_S1x1x256_S8192x64x256_0_1_2 : S1x1x256.BroadcastsInDim S8192x64x256 (![0, 1, 2] : Fin 3 → Fin S8192x64x256.rank)
  bcast_S_S8192x64x256 : S_.BroadcastsInDim S8192x64x256 (![] : Fin 0 → Fin S8192x64x256.rank)
  bcast_S257_S1x1x257_2 : S257.BroadcastsInDim S1x1x257 (![2] : Fin 1 → Fin S1x1x257.rank)
  bcast_S1x1x257_S8192x64x257_0_1_2 : S1x1x257.BroadcastsInDim S8192x64x257 (![0, 1, 2] : Fin 3 → Fin S8192x64x257.rank)
  bcast_S_S8192x64x257 : S_.BroadcastsInDim S8192x64x257 (![] : Fin 0 → Fin S8192x64x257.rank)
  bcast_S8192x64_S8192x64x1_0_1 : S8192x64.BroadcastsInDim S8192x64x1 (![0, 1] : Fin 2 → Fin S8192x64x1.rank)
  bcast_S8192x64x1_S8192x64x257_0_1_2 : S8192x64x1.BroadcastsInDim S8192x64x257 (![0, 1, 2] : Fin 3 → Fin S8192x64x257.rank)
  reducesTo_S8192x64x257_S8192x257_d1 : S8192x64x257.ReducesTo [1] S8192x257
  concatenates_S8192x8_S8192x257_S8192x265_d1 : Shape.Concatenates [S8192x8, S8192x257] S8192x265 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S30_S1x30_1 : S30.BroadcastsInDim S1x30 (![1] : Fin 1 → Fin S1x30.rank)
  bcast_S1x30_S8192x30_0_1 : S1x30.BroadcastsInDim S8192x30 (![0, 1] : Fin 2 → Fin S8192x30.rank)
  dot_S8192x64x8_S8x256_S8192x64x256_2_0_01_1_n_n_wf : DotDims.WF S8192x64x8 S8x256 S8192x64x256 [2] [0] [0, 1] [1] [] []
  dot_S8192x64x256_S256x257_S8192x64x257_2_0_01_1_n_n_wf : DotDims.WF S8192x64x256 S256x257 S8192x64x257 [2] [0] [0, 1] [1] [] []
  dot_S8192x265_S265x256_S8192x256_1_0_0_1_n_n_wf : DotDims.WF S8192x265 S265x256 S8192x256 [1] [0] [0] [1] [] []
  dot_S8192x256_S256x30_S8192x30_1_0_0_1_n_n_wf : DotDims.WF S8192x256 S256x30 S8192x30 [1] [0] [0] [1] [] []

variable [Facts₀]

def dot_S8192x64x8_S8x256_S8192x64x256_2_0_01_1_n_n : DotDims S8192x64x8 S8x256 S8192x64x256 where
  lhsContracting := [2]
  rhsContracting := [0]
  lhsNonContracting := [0, 1]
  rhsNonContracting := [1]
  lhsBatch := []
  rhsBatch := []
  wf := dot_S8192x64x8_S8x256_S8192x64x256_2_0_01_1_n_n_wf
def dot_S8192x64x256_S256x257_S8192x64x257_2_0_01_1_n_n : DotDims S8192x64x256 S256x257 S8192x64x257 where
  lhsContracting := [2]
  rhsContracting := [0]
  lhsNonContracting := [0, 1]
  rhsNonContracting := [1]
  lhsBatch := []
  rhsBatch := []
  wf := dot_S8192x64x256_S256x257_S8192x64x257_2_0_01_1_n_n_wf
def dot_S8192x265_S265x256_S8192x256_1_0_0_1_n_n : DotDims S8192x265 S265x256 S8192x256 where
  lhsContracting := [1]
  rhsContracting := [0]
  lhsNonContracting := [0]
  rhsNonContracting := [1]
  lhsBatch := []
  rhsBatch := []
  wf := dot_S8192x265_S265x256_S8192x256_1_0_0_1_n_n_wf
def dot_S8192x256_S256x30_S8192x30_1_0_0_1_n_n : DotDims S8192x256 S256x30 S8192x30 where
  lhsContracting := [1]
  rhsContracting := [0]
  lhsNonContracting := [0]
  rhsNonContracting := [1]
  lhsBatch := []
  rhsBatch := []
  wf := dot_S8192x256_S256x30_S8192x30_1_0_0_1_n_n_wf

class Facts : Prop extends Facts₀ where

variable [Facts]
-- ==== Proof.Spec.lean ====
/-
  The mathematics both programs compute, written once over plain coordinates.

  One batch row holds the agent's own state (8 numbers) and 64 neighbours (8 numbers each). Each neighbour goes
  through a two-layer perceptron with ReLU after each layer (8 → 256 → 257); a neighbour is PRESENT unless one of its
  coordinates is exactly the sentinel -1; the encodings of the present neighbours are summed; the own state and that
  sum (8 + 257 = 265 numbers) go through the Q head (265 → 256, ReLU, → 30). All sums are finite sums of extended
  reals; addition and multiplication there are commutative and associative, and nothing below distributes a product
  over a sum, so no finiteness is used.
-/
import Idealize.ShloMosaic.PureOps.Ideal
import Idealize.ShloMosaic.Lib.ValueIdx

noncomputable section

namespace Cert.AgentQ

open Idealize.ShloMosaic Idealize.ShloMosaic.ValueIdx

/-- The sentinel coordinate that marks an absent neighbour: the f32 word of -1. -/
abbrev sentinel : EReal := Ideal.ofBits .f32 0xBF800000#32

/-- First encoder layer at hidden unit `h`: ReLU of the affine map of the neighbour's 8 coordinates. -/
def hidden (W1 : Fin 8 → Fin 256 → EReal) (b1 : Fin 256 → EReal) (x : Fin 8 → EReal) (h : Fin 256) : EReal :=
  max ((∑ c : Fin 8, x c * W1 c h) + b1 h) 0

/-- Second encoder layer at output unit `e`: ReLU of the affine map of the 256 hidden units. -/
def encoded (W1 : Fin 8 → Fin 256 → EReal) (b1 : Fin 256 → EReal) (W2 : Fin 256 → Fin 257 → EReal) (b2 : Fin 257 → EReal)
    (x : Fin 8 → EReal) (e : Fin 257) : EReal :=
  max ((∑ h : Fin 256, hidden W1 b1 x h * W2 h e) + b2 e) 0

/-- 1 for a neighbour none of whose coordinates is the sentinel, 0 otherwise. -/
def present (x : Fin 8 → EReal) : EReal := if ∃ c : Fin 8, x c = sentinel then 0 else 1

/-- The sum over the 64 neighbours of the encoding, absent neighbours weighted 0. -/
def pooled (W1 : Fin 8 → Fin 256 → EReal) (b1 : Fin 256 → EReal) (W2 : Fin 256 → Fin 257 → EReal) (b2 : Fin 257 → EReal)
    (surr : Fin 64 → Fin 8 → EReal) (e : Fin 257) : EReal :=
  ∑ n : Fin 64, encoded W1 b1 W2 b2 (surr n) e * present (surr n)

/-- The Q head's input: the own state in positions 0..7, the pooled encoding in positions 8..264. -/
def feature (self : Fin 8 → EReal) (pool : Fin 257 → EReal) (j : Fin 265) : EReal :=
  if h : j.val < 8 then self ⟨j.val, h⟩ else pool ⟨j.val - 8, by have := j.isLt; omega⟩

/-- The Q head at action `a`: affine, ReLU, affine. -/
def qvalue (Qw1 : Fin 265 → Fin 256 → EReal) (Qb1 : Fin 256 → EReal) (Qw2 : Fin 256 → Fin 30 → EReal) (Qb2 : Fin 30 → EReal)
    (x : Fin 265 → EReal) (a : Fin 30) : EReal :=
  (∑ k : Fin 256, max ((∑ j : Fin 265, x j * Qw1 j k) + Qb1 k) 0 * Qw2 k a) + Qb2 a

/-- Row `r`'s own state: columns 0..7 of the packed state array. -/
def selfOf (s : (⟨2, ![8192, 520]⟩ : Shape).Idx → EReal) (r : Fin 8192) (c : Fin 8) : EReal :=
  s (ix2 r ⟨c.val, by have := c.isLt; omega⟩)

/-- Row `r`'s neighbour `n`: columns 8 + 8n .. 8 + 8n + 7 of the packed state array. -/
def surrOf (s : (⟨2, ![8192, 520]⟩ : Shape).Idx → EReal) (r : Fin 8192) (n : Fin 64) (c : Fin 8) : EReal :=
  s (ix2 r ⟨8 + (8 * n.val + c.val), by have := c.isLt; have := n.isLt; omega⟩)

/-- The whole result array as one function of the nine argument arrays, index by index. -/
def Q (s : (⟨2, ![8192, 520]⟩ : Shape).Idx → EReal)
    (W1 : (⟨2, ![8, 256]⟩ : Shape).Idx → EReal) (b1 : (⟨1, ![256]⟩ : Shape).Idx → EReal)
    (W2 : (⟨2, ![256, 257]⟩ : Shape).Idx → EReal) (b2 : (⟨1, ![257]⟩ : Shape).Idx → EReal)
    (Qw1 : (⟨2, ![265, 256]⟩ : Shape).Idx → EReal) (Qb1 : (⟨1, ![256]⟩ : Shape).Idx → EReal)
    (Qw2 : (⟨2, ![256, 30]⟩ : Shape).Idx → EReal) (Qb2 : (⟨1, ![30]⟩ : Shape).Idx → EReal) :
    (⟨2, ![8192, 30]⟩ : Shape).Idx → EReal := fun i =>
  qvalue (fun j k => Qw1 (ix2 j k)) (fun k => Qb1 (ix1 k)) (fun k a => Qw2 (ix2 k a)) (fun a => Qb2 (ix1 a))
    (feature (selfOf s (i 0))
      (pooled (fun c h => W1 (ix2 c h)) (fun h => b1 (ix1 h)) (fun h e => W2 (ix2 h e)) (fun e => b2 (ix1 e)) (surrOf s (i 0))))
    (i 1)

end Cert.AgentQ

end
-- ==== Proof.RefPool.lean ====
import proofs.«112311_j9594956939555_1_alg».proof.Proof.RefRead
import proofs.«112311_j9594956939555_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Idealize.ShloMosaic Idealize.ShloMosaic.ValueIdx

/-!
  The pooled encoding on the reference side: the sum over the 64 neighbours of the two-layer ReLU encoding of
  each neighbour, weighted by 1 if none of its eight coordinates is the sentinel and by 0 otherwise, read off the
  reference's operations one at a time at an index and identified with the specification's `pooled`.
-/

/-! ## One-bit words -/

/-- The OR of two one-bit words is 1 exactly when one of them is. -/
theorem ori_eq_one_iff (y z : BitVec 1) : IntOp.ori y z = 1#1 ↔ y = 1#1 ∨ z = 1#1 := by
  revert y z; decide

/-- The OR of a family of one-bit words, folded from 0, is 1 exactly when some member is 1. -/
theorem fold_ori_eq_one_iff {ι : Type} (s : Finset ι) (g : ι → BitVec 1) :
    s.fold IntOp.ori 0#1 g = 1#1 ↔ ∃ k ∈ s, g k = 1#1 := by
  classical
  induction s using Finset.induction_on with
  | empty => simp
  | insert a s ha ih =>
    rw [Finset.fold_insert ha, ori_eq_one_iff, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The ordered-equal comparison of two extended reals is the word 1 exactly when they are equal. -/
theorem cmp_oeq_eq_one_iff (a b : EReal) : Ideal.cmp .oeq a b = 1#1 ↔ a = b := by
  show BitVec.ofBool (decide (a = b)) = 1#1 ↔ a = b
  by_cases h : a = b
  · simp [h]
  · simp [h]

/-! ## The neighbours' coordinates -/

/-- The reshaped slice at (r, n, c) is column 8 + 8n + c of row r: the flat position (64 r + n) 8 + c of the
    [8192, 64, 8] array is position 512 r + (8 n + c) of the [8192, 512] one. -/
theorem surr_apply (x0 : (⟨S8192x520, .f32⟩ : BufTy).Contents (Elt Ideal)) (r : Fin 8192) (n : Fin 64) (c : Fin 8) :
    val_main_v2 (F := Ideal) x0 (ix3 r n c) = Cert.AgentQ.surrOf x0 r n c := by
  rw [val_main_v2_apply, val_main_v1_apply]
  unfold Cert.AgentQ.surrOf
  have hn : n.val < 64 := n.isLt
  have hc : c.val < 8 := c.isLt
  refine congrArg x0 (funext fun a => Fin.ext ?_)
  match a with
  | ⟨0, _⟩ =>
    show ((r.val * 64 + n.val) * 8 + c.val) / 512 = r.val
    omega
  | ⟨1, _⟩ =>
    show 8 + ((r.val * 64 + n.val) * 8 + c.val) % 512 = 8 + (8 * n.val + c.val)
    omega

/-! ## The presence mask -/

/-- The comparison with the sentinel at (r, n, c) is 1 exactly when that coordinate is the sentinel. -/
theorem isSentinel_apply (x0 : (⟨S8192x520, .f32⟩ : BufTy).Contents (Elt Ideal)) (r : Fin 8192) (n : Fin 64) (c : Fin 8) :
    val_main_v4 (F := Ideal) x0 (ix3 r n c) = 1#1 ↔ Cert.AgentQ.surrOf x0 r n c = Cert.AgentQ.sentinel := by
  rw [val_main_v4_apply, val_main_v3_apply, val_main_cst_apply, surr_apply, Ideal.cmpf_def, Ideal.ofBits_def]
  exact cmp_oeq_eq_one_iff _ _

/-- The index (r, n) of the reduced array with coordinate k put back on the dropped last axis is (r, n, k). -/
theorem lift_coord (h : S8192x64x8.Reduces [2] S8192x64) (r : Fin 8192) (n : Fin 64) (k : Fin (S8192x64x8.size 2)) :
    h.lift (ix2 r n) k = ix3 r n (⟨k.val, k.isLt⟩ : Fin 8) := by
  funext a; apply Fin.ext
  match a with
  | ⟨0, _⟩ => rfl
  | ⟨1, _⟩ => rfl
  | ⟨2, _⟩ => rfl

/-- The OR over the eight coordinates of neighbour n of row r is 1 exactly when one of them is the sentinel. -/
theorem anySentinel_apply (x0 : (⟨S8192x520, .f32⟩ : BufTy).Contents (Elt Ideal)) (r : Fin 8192) (n : Fin 64) :
    val_main_v5 (F := Ideal) x0 (ix2 r n) = 1#1 ↔ ∃ c : Fin 8, Cert.AgentQ.surrOf x0 r n c = Cert.AgentQ.sentinel := by
  have hRed : S8192x64x8.Reduces [2] S8192x64 := by decide
  unfold val_main_v5
  rw [Host.reduce_eq_fold_single IntOp.ori (val_main_v4 (F := Ideal) x0) (val_main_c (F := Ideal))
    Gen.reducesTo_S8192x64x8_S8192x64_d2 hRed Gen.h_S_ (ix2 r n)]
  rw [val_main_c_apply, fold_ori_eq_one_iff]
  constructor
  · rintro ⟨k, _, hk⟩
    refine ⟨⟨k.val, k.isLt⟩, (isSentinel_apply x0 r n _).mp ?_⟩
    rw [← lift_coord hRed r n k]
    exact hk
  · rintro ⟨c, hc⟩
    refine ⟨⟨c.val, c.isLt⟩, Finset.mem_univ _, ?_⟩
    show val_main_v4 (F := Ideal) x0 (hRed.lift (ix2 r n) ⟨c.val, c.isLt⟩) = 1#1
    rw [lift_coord hRed r n ⟨c.val, c.isLt⟩]
    exact (isSentinel_apply x0 r n c).mpr hc

/-- The mask at (r, n): the negated OR, read as an unsigned integer, is 1 for a present neighbour and 0 otherwise. -/
theorem mask_apply (x0 : (⟨S8192x520, .f32⟩ : BufTy).Contents (Elt Ideal)) (r : Fin 8192) (n : Fin 64) :
    val_main_v18 (F := Ideal) x0 (ix3 r n (0 : Fin 1)) = Cert.AgentQ.present (Cert.AgentQ.surrOf x0 r n) := by
  have hidx : idx_main_v17 (ix3 r n (0 : Fin 1)) = ix2 r n :=
    funext fun a => Fin.ext (by match a with | ⟨0, _⟩ => rfl | ⟨1, _⟩ => rfl)
  rw [val_main_v18_apply, val_main_v17_apply, val_main_v6_apply, hidx]
  unfold Cert.AgentQ.present
  by_cases h : ∃ c : Fin 8, Cert.AgentQ.surrOf x0 r n c = Cert.AgentQ.sentinel
  · rw [if_pos h, (anySentinel_apply x0 r n).mpr h]
    show ((((~~~(1#1 : BitVec 1)).toNat : ℕ) : ℝ) : EReal) = 0
    simp
  · rw [if_neg h, eq_zero_of_ne_one (mt (anySentinel_apply x0 r n).mp h)]
    show ((((~~~(0#1 : BitVec 1)).toNat : ℕ) : ℝ) : EReal) = 1
    simp

/-! ## The two encoder layers -/

/-- The first layer at (r, n, h): the ReLU of the neighbour's eight coordinates against column h of the first
    weight matrix, plus the bias. -/
theorem hidden_apply (x0 : (⟨S8192x520, .f32⟩ : BufTy).Contents (Elt Ideal)) (x1 : (⟨S8x256, .f32⟩ : BufTy).Contents (Elt Ideal))
    (x2 : (⟨S256, .f32⟩ : BufTy).Contents (Elt Ideal)) (r : Fin 8192) (n : Fin 64) (h : Fin 256) :
    val_main_v11 (F := Ideal) x0 x1 x2 (ix3 r n h)
      = Cert.AgentQ.hidden (fun c h' => x1 (ix2 c h')) (fun h' => x2 (ix1 h')) (Cert.AgentQ.surrOf x0 r n) h := by
  have hdot : val_main_v7 (F := Ideal) x0 x1 (ix3 r n h) = ∑ c : Fin 8, Cert.AgentQ.surrOf x0 r n c * x1 (ix2 c h) := by
    rw [val_main_v7_apply]
    refine Finset.sum_congr rfl fun c _ => ?_
    have el : lidx_main_v7 (ix3 r n h) c = ix3 r n c :=
      funext fun a => Fin.ext (by match a with | ⟨0, _⟩ => rfl | ⟨1, _⟩ => rfl | ⟨2, _⟩ => rfl)
    have er : ridx_main_v7 (ix3 r n h) c = ix2 c h :=
      funext fun a => Fin.ext (by match a with | ⟨0, _⟩ => rfl | ⟨1, _⟩ => rfl)
    rw [el, er, surr_apply]
  have hbias : val_main_v9 (F := Ideal) x2 (ix3 r n h) = x2 (ix1 h) := by
    rw [val_main_v9_apply, val_main_v8_apply]
    exact congrArg x2 (funext fun a => Fin.ext (by match a with | ⟨0, _⟩ => rfl))
  have hzero : val_main_call0_v0 (F := Ideal) (ix3 r n h) = (0 : EReal) := by
    rw [val_main_call0_v0_apply, val_main_call0_cst_apply, Ideal.ofBits_def, Ideal.ofBits_zero_f32]
  rw [val_main_v11_apply, val_main_v10_apply, hdot, hbias, hzero]
  rfl

/-- The second layer at (r, n, e): the ReLU of the 256 hidden units against column e of the second weight matrix,
    plus the bias. -/
theorem encoded_apply (x0 : (⟨S8192x520, .f32⟩ : BufTy).Contents (Elt Ideal)) (x1 : (⟨S8x256, .f32⟩ : BufTy).Contents (Elt Ideal))
    (x2 : (⟨S256, .f32⟩ : BufTy).Contents (Elt Ideal)) (x3 : (⟨S256x257, .f32⟩ : BufTy).Contents (Elt Ideal))
    (x4 : (⟨S257, .f32⟩ : BufTy).Contents (Elt Ideal)) (r : Fin 8192) (n : Fin 64) (e : Fin 257) :
    val_main_v16 (F := Ideal) x0 x1 x2 x3 x4 (ix3 r n e)
      = Cert.AgentQ.encoded (fun c h => x1 (ix2 c h)) (fun h => x2 (ix1 h)) (fun h e' => x3 (ix2 h e')) (fun e' => x4 (ix1 e'))
          (Cert.AgentQ.surrOf x0 r n) e := by
  have hdot : val_main_v12 (F := Ideal) x0 x1 x2 x3 (ix3 r n e)
      = ∑ h : Fin 256, Cert.AgentQ.hidden (fun c h' => x1 (ix2 c h')) (fun h' => x2 (ix1 h')) (Cert.AgentQ.surrOf x0 r n) h * x3 (ix2 h e) := by
    rw [val_main_v12_apply]
    refine Finset.sum_congr rfl fun h _ => ?_
    have el : lidx_main_v12 (ix3 r n e) h = ix3 r n h :=
      funext fun a => Fin.ext (by match a with | ⟨0, _⟩ => rfl | ⟨1, _⟩ => rfl | ⟨2, _⟩ => rfl)
    have er : ridx_main_v12 (ix3 r n e) h = ix2 h e :=
      funext fun a => Fin.ext (by match a with | ⟨0, _⟩ => rfl | ⟨1, _⟩ => rfl)
    rw [el, er, hidden_apply]
  have hbias : val_main_v14 (F := Ideal) x4 (ix3 r n e) = x4 (ix1 e) := by
    rw [val_main_v14_apply, val_main_v13_apply]
    exact congrArg x4 (funext fun a => Fin.ext (by match a with | ⟨0, _⟩ => rfl))
  have hzero : val_main_call1_v0 (F := Ideal) (ix3 r n e) = (0 : EReal) := by
    rw [val_main_call1_v0_apply, val_main_call1_cst_apply, Ideal.ofBits_def, Ideal.ofBits_zero_f32]
  rw [val_main_v16_apply, val_main_v15_apply, hdot, hbias, hzero]
  rfl

/-! ## The pooled encoding -/

/-- The sum over the 64 neighbours of the encoding times the mask, from the initial value 0, is the specification's
    pooled encoding of row r at unit e. -/
theorem pool_apply (x0 : (⟨S8192x520, .f32⟩ : BufTy).Contents (Elt Ideal)) (x1 : (⟨S8x256, .f32⟩ : BufTy).Contents (Elt Ideal))
    (x2 : (⟨S256, .f32⟩ : BufTy).Contents (Elt Ideal)) (x3 : (⟨S256x257, .f32⟩ : BufTy).Contents (Elt Ideal))
    (x4 : (⟨S257, .f32⟩ : BufTy).Contents (Elt Ideal)) (r : Fin 8192) (e : Fin 257) :
    val_main_v21 (F := Ideal) x0 x1 x2 x3 x4 (ix2 r e)
      = Cert.AgentQ.pooled (fun c h => x1 (ix2 c h)) (fun h => x2 (ix1 h)) (fun h e' => x3 (ix2 h e')) (fun e' => x4 (ix1 e'))
          (Cert.AgentQ.surrOf x0 r) e := by
  rw [val_main_v21_apply, val_main_cst_0_apply, Ideal.ofBits_def, Ideal.ofBits_zero_f32, zero_add]
  unfold Cert.AgentQ.pooled
  refine Finset.sum_congr rfl fun n _ => ?_
  have ei : idx_main_v21 (ix2 r e) n = ix3 r n e :=
    funext fun a => Fin.ext (by match a with | ⟨0, _⟩ => rfl | ⟨1, _⟩ => rfl | ⟨2, _⟩ => rfl)
  have em : idx_main_v19 (ix3 r n e) = ix3 r n (0 : Fin 1) :=
    funext fun a => Fin.ext (by match a with | ⟨0, _⟩ => rfl | ⟨1, _⟩ => rfl | ⟨2, _⟩ => rfl)
  rw [ei, val_main_v20_apply, val_main_v19_apply, em, encoded_apply, mask_apply]
  rfl

end Cert.ReferenceIdeal.RefValue

end
-- ==== Proof.RefHead.lean ====
/-
  The reference's Q head, read at one row and one action.

  The reference program places the pooled encoding (257 numbers per row) after the row's own state (the first 8 columns
  of the packed state array), multiplies the 265 numbers by the first head matrix, adds the hidden bias, takes the
  maximum with 0, multiplies by the second head matrix and adds the output bias. Over the extended reals each product of
  matrices is the plain sum over the contracted axis, and a bias broadcast along the rows is the bias itself. So the
  result at (row, action), given what the pooled stage is at that row, is the specification's `qvalue` of the
  specification's `feature` of the row's own state and that pooled value.
-/
import proofs.«112311_j9594956939555_1_alg».proof.Proof.RefRead
import proofs.«112311_j9594956939555_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.ReadP Idealize.ShloMosaic Idealize.ShloMosaic.ValueIdx

/-- The own-state slice (columns 0..7 of the packed state) at row r and coordinate c. -/
theorem self_apply (x0 : (⟨S8192x520, .f32⟩ : BufTy).Contents (Elt Ideal)) (r : Fin 8192) (c : Fin 8) :
    val_main_v0 (F := Ideal) x0 (ix2 r c) = Cert.AgentQ.selfOf x0 r c := by
  refine (val_main_v0_apply x0 (ix2 r c)).trans ?_
  unfold Cert.AgentQ.selfOf
  exact congrArg x0 (funext fun a => Fin.ext (by match a with | ⟨0, _⟩ => rfl | ⟨1, _⟩ => rfl))

/-- The concatenation of the own state and the pooled stage along the feature axis, at row r and position j, given
    the pooled stage at row r: the Q head's input. -/
theorem feat_apply (x0 : (⟨S8192x520, .f32⟩ : BufTy).Contents (Elt Ideal)) (x1 : (⟨S8x256, .f32⟩ : BufTy).Contents (Elt Ideal))
    (x2 : (⟨S256, .f32⟩ : BufTy).Contents (Elt Ideal)) (x3 : (⟨S256x257, .f32⟩ : BufTy).Contents (Elt Ideal))
    (x4 : (⟨S257, .f32⟩ : BufTy).Contents (Elt Ideal)) (r : Fin 8192) (pool : Fin 257 → EReal)
    (hpool : ∀ e : Fin 257, val_main_v21 (F := Ideal) x0 x1 x2 x3 x4 (ix2 r e) = pool e) (j : Fin 265) :
    val_main_v22 (F := Ideal) x0 x1 x2 x3 x4 (ix2 r j) = Cert.AgentQ.feature (Cert.AgentQ.selfOf x0 r) pool j := by
  unfold val_main_v22
  generalize val_main_v21 (F := Ideal) x0 x1 x2 x3 x4 = y at hpool ⊢
  unfold Cert.AgentQ.feature
  split
  · next h =>
    refine (concatenate_pair_apply_left 1 (val_main_v0 (F := Ideal) x0) y _ (ix2 r j) rfl (ix2 r ⟨j.val, h⟩)
      (fun b => match b with | ⟨0, _⟩ => rfl | ⟨1, _⟩ => rfl)).trans ?_
    exact self_apply x0 r ⟨j.val, h⟩
  · next h =>
    refine (concatenate_pair_apply_right 1 (val_main_v0 (F := Ideal) x0) y _ (ix2 r j) rfl rfl
      (ix2 r ⟨j.val - 8, by have := j.isLt; omega⟩)
      (fun b hb => match b, hb with | ⟨0, _⟩, _ => rfl | ⟨1, _⟩, hb => absurd rfl hb)
      (by show j.val - 8 + 8 = j.val; omega)).trans ?_
    exact hpool _

/-! The operand indices of the two products and of the two bias broadcasts, at coordinates. -/

theorem lidx23_eq (r : Fin 8192) (k : Fin 256) (j : Fin 265) : lidx_main_v23 (ix2 r k) j = ix2 r j :=
  funext fun b => Fin.ext (by match b with | ⟨0, _⟩ => rfl | ⟨1, _⟩ => rfl)
theorem ridx23_eq (r : Fin 8192) (k : Fin 256) (j : Fin 265) : ridx_main_v23 (ix2 r k) j = ix2 j k :=
  funext fun b => Fin.ext (by match b with | ⟨0, _⟩ => rfl | ⟨1, _⟩ => rfl)
theorem lidx28_eq (r : Fin 8192) (a : Fin 30) (k : Fin 256) : lidx_main_v28 (ix2 r a) k = ix2 r k :=
  funext fun b => Fin.ext (by match b with | ⟨0, _⟩ => rfl | ⟨1, _⟩ => rfl)
theorem ridx28_eq (r : Fin 8192) (a : Fin 30) (k : Fin 256) : ridx_main_v28 (ix2 r a) k = ix2 k a :=
  funext fun b => Fin.ext (by match b with | ⟨0, _⟩ => rfl | ⟨1, _⟩ => rfl)
theorem idx2425_eq (r : Fin 8192) (k : Fin 256) : idx_main_v24 (idx_main_v25 (ix2 r k)) = ix1 k :=
  funext fun b => Fin.ext (by match b with | ⟨0, _⟩ => rfl)
theorem idx2930_eq (r : Fin 8192) (a : Fin 30) : idx_main_v29 (idx_main_v30 (ix2 r a)) = ix1 a :=
  funext fun b => Fin.ext (by match b with | ⟨0, _⟩ => rfl)

/-- The hidden bias broadcast to every row, at row r and hidden unit k. -/
theorem bias256_apply (x6 : (⟨S256, .f32⟩ : BufTy).Contents (Elt Ideal)) (r : Fin 8192) (k : Fin 256) :
    val_main_v25 (F := Ideal) x6 (ix2 r k) = x6 (ix1 k) :=
  (val_main_v25_apply x6 (ix2 r k)).trans ((val_main_v24_apply x6 _).trans (congrArg x6 (idx2425_eq r k)))

/-- The output bias broadcast to every row, at row r and action a. -/
theorem bias30_apply (x8 : (⟨S30, .f32⟩ : BufTy).Contents (Elt Ideal)) (r : Fin 8192) (a : Fin 30) :
    val_main_v30 (F := Ideal) x8 (ix2 r a) = x8 (ix1 a) :=
  (val_main_v30_apply x8 (ix2 r a)).trans ((val_main_v29_apply x8 _).trans (congrArg x8 (idx2930_eq r a)))

/-- The zero the hidden layer is compared with, at any index. -/
theorem reluZero_apply (i : S8192x256.Idx) : val_main_call2_v0 (F := Ideal) i = 0 :=
  (val_main_call2_v0_apply (F := Ideal) i).trans ((val_main_call2_cst_apply (F := Ideal) _).trans Ideal.ofBits_zero_f32)

/-- The hidden layer after its ReLU at row r and hidden unit k, given the pooled stage at row r. -/
theorem headHidden_apply (x0 : (⟨S8192x520, .f32⟩ : BufTy).Contents (Elt Ideal)) (x1 : (⟨S8x256, .f32⟩ : BufTy).Contents (Elt Ideal))
    (x2 : (⟨S256, .f32⟩ : BufTy).Contents (Elt Ideal)) (x3 : (⟨S256x257, .f32⟩ : BufTy).Contents (Elt Ideal))
    (x4 : (⟨S257, .f32⟩ : BufTy).Contents (Elt Ideal)) (x5 : (⟨S265x256, .f32⟩ : BufTy).Contents (Elt Ideal))
    (x6 : (⟨S256, .f32⟩ : BufTy).Contents (Elt Ideal)) (r : Fin 8192) (pool : Fin 257 → EReal)
    (hpool : ∀ e : Fin 257, val_main_v21 (F := Ideal) x0 x1 x2 x3 x4 (ix2 r e) = pool e) (k : Fin 256) :
    val_main_v27 (F := Ideal) x0 x1 x2 x3 x4 x5 x6 (ix2 r k)
      = max ((∑ j : Fin 265, Cert.AgentQ.feature (Cert.AgentQ.selfOf x0 r) pool j * x5 (ix2 j k)) + x6 (ix1 k)) 0 := by
  refine (val_main_v27_apply x0 x1 x2 x3 x4 x5 x6 (ix2 r k)).trans ?_
  refine (Ideal.maximumf_def _ _).trans (congrArg₂ max ?_ (reluZero_apply _))
  refine (val_main_v26_apply x0 x1 x2 x3 x4 x5 x6 (ix2 r k)).trans ?_
  refine (Ideal.addf_def _ _).trans (congrArg₂ (· + ·) ?_ (bias256_apply x6 r k))
  refine (val_main_v23_apply x0 x1 x2 x3 x4 x5 (ix2 r k)).trans (Finset.sum_congr rfl fun j _ => ?_)
  rw [lidx23_eq, ridx23_eq]
  exact congrArg (· * x5 (ix2 j k)) (feat_apply x0 x1 x2 x3 x4 r pool hpool j)

theorem head_apply (x0 : (⟨S8192x520, .f32⟩ : BufTy).Contents (Elt Ideal)) (x1 : (⟨S8x256, .f32⟩ : BufTy).Contents (Elt Ideal))
    (x2 : (⟨S256, .f32⟩ : BufTy).Contents (Elt Ideal)) (x3 : (⟨S256x257, .f32⟩ : BufTy).Contents (Elt Ideal))
    (x4 : (⟨S257, .f32⟩ : BufTy).Contents (Elt Ideal)) (x5 : (⟨S265x256, .f32⟩ : BufTy).Contents (Elt Ideal))
    (x6 : (⟨S256, .f32⟩ : BufTy).Contents (Elt Ideal)) (x7 : (⟨S256x30, .f32⟩ : BufTy).Contents (Elt Ideal))
    (x8 : (⟨S30, .f32⟩ : BufTy).Contents (Elt Ideal)) (r : Fin 8192) (a : Fin 30) (pool : Fin 257 → EReal)
    (hpool : ∀ e : Fin 257, val_main_v21 (F := Ideal) x0 x1 x2 x3 x4 (ix2 r e) = pool e) :
    val_main_v31 (F := Ideal) x0 x1 x2 x3 x4 x5 x6 x7 x8 (ix2 r a)
      = Cert.AgentQ.qvalue (fun j k => x5 (ix2 j k)) (fun k => x6 (ix1 k)) (fun k a' => x7 (ix2 k a')) (fun a' => x8 (ix1 a'))
          (Cert.AgentQ.feature (Cert.AgentQ.selfOf x0 r) pool) a := by
  unfold Cert.AgentQ.qvalue
  refine (val_main_v31_apply x0 x1 x2 x3 x4 x5 x6 x7 x8 (ix2 r a)).trans ?_
  refine (Ideal.addf_def _ _).trans (congrArg₂ (· + ·) ?_ (bias30_apply x8 r a))
  refine (val_main_v28_apply x0 x1 x2 x3 x4 x5 x6 x7 (ix2 r a)).trans (Finset.sum_congr rfl fun k _ => ?_)
  rw [lidx28_eq, ridx28_eq]
  exact congrArg (· * x7 (ix2 k a)) (headHidden_apply x0 x1 x2 x3 x4 x5 x6 r pool hpool k)

end Cert.ReferenceIdeal.RefValue

end
-- ==== Proof.RefValue.lean ====
/-
  The reference's result stage is the specification's array: at row r and action a the Q head reads the own state
  and the pooled encoding of row r, and the pooled stage at row r is the specification's pooled sum.
-/
import proofs.«112311_j9594956939555_1_alg».proof.Proof.RefPool
import proofs.«112311_j9594956939555_1_alg».proof.Proof.RefHead
import proofs.«112311_j9594956939555_1_alg».proof.Proof.Spec

noncomputable section

namespace Cert.ReferenceIdeal.RefValue

open Cert.ReferenceIdeal Cert.ReferenceIdeal.ReadP Idealize.ShloMosaic Idealize.ShloMosaic.ValueIdx

/-- The reference's last stage, as a whole array, is the specification's function of the nine argument arrays. -/
theorem result_eq (x0 : (⟨S8192x520, .f32⟩ : BufTy).Contents (Elt Ideal)) (x1 : (⟨S8x256, .f32⟩ : BufTy).Contents (Elt Ideal))
    (x2 : (⟨S256, .f32⟩ : BufTy).Contents (Elt Ideal)) (x3 : (⟨S256x257, .f32⟩ : BufTy).Contents (Elt Ideal))
    (x4 : (⟨S257, .f32⟩ : BufTy).Contents (Elt Ideal)) (x5 : (⟨S265x256, .f32⟩ : BufTy).Contents (Elt Ideal))
    (x6 : (⟨S256, .f32⟩ : BufTy).Contents (Elt Ideal)) (x7 : (⟨S256x30, .f32⟩ : BufTy).Contents (Elt Ideal))
    (x8 : (⟨S30, .f32⟩ : BufTy).Contents (Elt Ideal)) :
    val_main_v31 (F := Ideal) x0 x1 x2 x3 x4 x5 x6 x7 x8 = Cert.AgentQ.Q x0 x1 x2 x3 x4 x5 x6 x7 x8 := by
  funext i
  obtain ⟨r, a, rfl⟩ : ∃ (r : Fin 8192) (a : Fin 30), i = ix2 r a := ⟨i 0, i 1, eq_ix2 i⟩
  unfold Cert.AgentQ.Q
  exact head_apply x0 x1 x2 x3 x4 x5 x6 x7 x8 r a _ (fun e => pool_apply x0 x1 x2 x3 x4 r e)

end Cert.ReferenceIdeal.RefValue

end
-- ==== Proof.KernelEnc.lean ====
/-
  The kernel body's first payload read at one entry.

  For batch row `p`, neighbour `n` and output unit `e` the payload is the product of two numbers. The first is the
  two-layer perceptron of the neighbour's 8 coordinates at output `e`: the neighbours of all rows are laid out as one
  table of 4096 rows (row `64 p + n`), each layer is a matrix product into a zero accumulator followed by a bias row
  added to every row and a maximum with 0, and the result is cut back into rows and neighbours. The second is the
  presence mask: the number of coordinates equal to the sentinel is a sum of eight flags, each 0 or 1, so it is 0
  exactly when no coordinate is the sentinel; the comparison of that count with 0, read as a number, is 1 for a present
  neighbour and 0 for an absent one, and it is spread unchanged over the 257 output units.

  The lemmas below read each operation at an index built from literal coordinates: the mask first, then the
  reshapes and broadcasts, then the two matrix products, then the two layers, and last the payload itself.
-/
import proofs.«112311_j9594956939555_1_alg».proof.Proof.Gen.KernelIdeal.Skeleton
import proofs.«112311_j9594956939555_1_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The 32-bit widening of a comparison bit, read as a signed integer and then as an extended real, is 1 or 0. -/
theorem flag_eq (a b : EReal) :
    FloatOps.sitofp (F := Ideal) .f32 ((FloatOps.cmpf (F := Ideal) (φ := .f32) .oeq a b).setWidth 32) = if a = b then (1 : EReal) else 0 := by
  show (((((Ideal.cmp .oeq a b).setWidth 32).toInt : ℤ) : ℝ) : EReal) = _
  unfold Ideal.cmp
  by_cases h : a = b
  · simp [h]
  · simp [h]

/-- The index the reduction over the last axis inserts coordinate `k` into is `(p, n, k)`. -/
theorem lift_eq (p n : Fin 64) (k : Fin 8) :
    reduces_S64x64x8_S64x64.lift (ix2 p n) k = ix3 p n k := by
  funext a
  match a with
  | ⟨0, _⟩ => rfl
  | ⟨1, _⟩ => rfl
  | ⟨2, _⟩ => rfl

/-- A sum of eight flags, each 0 or 1, vanishes exactly when every flag is 0: the terms are nonnegative. -/
theorem sum_flags_eq_zero_iff (q : Fin 8 → Prop) [DecidablePred q] :
    (∑ c : Fin 8, (if q c then (1 : EReal) else 0)) = 0 ↔ ¬ ∃ c, q c := by
  rw [Finset.sum_eq_zero_iff_of_nonneg (fun c _ => by split <;> simp)]
  constructor
  · rintro h ⟨c, hc⟩
    have := h c (Finset.mem_univ c)
    rw [if_pos hc] at this
    exact one_ne_zero this
  · intro h c _
    rw [if_neg (fun hc => h ⟨c, hc⟩)]

/-- THE MASK at neighbour `(p, n)`: count the coordinates equal to the sentinel, compare the count with zero, and read
    the bit as a number: 1 when no coordinate is the sentinel, 0 otherwise. -/
theorem mask_apply (x : FVec Ideal S64x64x8 .f32) (p n : Fin 64) :
    (sitofp .f32 (extui 32 (cmpf .oeq
        (multiReduction (F := Ideal) .add [2] S64x64
          (sitofp .f32 (extui 32 (cmpf .oeq x (broadcast S64x64x8 (Scalar.ofBits (F := Ideal) .f32 0xBF800000#32))) natLt_1_32))
          0x00000000#32 reduces_S64x64x8_S64x64 (.inl rfl) rfl)
        (broadcast S64x64 (Scalar.ofBits (F := Ideal) .f32 0x00000000#32))) natLt_1_32) : FVec Ideal S64x64 .f32) (ix2 p n)
      = Cert.AgentQ.present (fun c => x (ix3 p n c)) := by
  rw [sitofp_apply, extui_apply, cmpf_apply, broadcast_apply, flag_eq]
  have hs : multiReduction (F := Ideal) .add [2] S64x64
        (sitofp .f32 (extui 32 (cmpf .oeq x (broadcast S64x64x8 (Scalar.ofBits (F := Ideal) .f32 0xBF800000#32))) natLt_1_32))
        0x00000000#32 reduces_S64x64x8_S64x64 (.inl rfl) rfl (ix2 p n)
      = ∑ c : Fin 8, (if x (ix3 p n c) = Cert.AgentQ.sentinel then (1 : EReal) else 0) := by
    refine (Ideal.multiReduction_add_single _ _ reduces_S64x64x8_S64x64 (.inl rfl) rfl (ix2 p n)).trans ?_
    refine Finset.sum_congr rfl fun (c : Fin 8) _ => ?_
    rw [lift_eq, sitofp_apply, extui_apply, cmpf_apply, broadcast_apply, flag_eq]
    rfl
  rw [hs]
  show (if _ = Ideal.ofBits .f32 0x00000000#32 then (1 : EReal) else 0) = _
  rw [Ideal.ofBits_zero_f32]
  unfold Cert.AgentQ.present
  by_cases h : ∃ c, x (ix3 p n c) = Cert.AgentQ.sentinel
  · rw [if_neg (fun hz => ((sum_flags_eq_zero_iff _).mp hz) h), if_pos h]
  · rw [if_pos ((sum_flags_eq_zero_iff _).mpr h), if_neg h]

/-- Row `64 p + n` of the flattened table of neighbours: neighbour `n` of batch row `p`. -/
abbrev flatRow (p n : Fin 64) : Fin 4096 := ⟨64 * p.val + n.val, by have := p.isLt; have := n.isLt; omega⟩

/-- Flattening the two leading axes: row `64 p + n`, column `c` of the flat table is entry `(p, n, c)`. -/
theorem flatten_apply {α : Type} (x : S64x64x8.Idx → α) (p n : Fin 64) (c : Fin 8) :
    shapeCast S4096x8 x shapeCasts_S64x64x8_S4096x8 (ix2 (flatRow p n) c) = x (ix3 p n c) := by
  refine shapeCast_apply x _ (ix2 (flatRow p n) c) (ix3 p n c) ?_
  rw [Shape.rowMajor_val_two, Shape.rowMajor_val_three]
  show (p.val * 64 + n.val) * 8 + c.val = (64 * p.val + n.val) * 8 + c.val
  omega

/-- Splitting the row axis back: entry `(p, n, e)` is row `64 p + n`, column `e` of the flat table. -/
theorem unflatten_apply {α : Type} (x : S4096x257.Idx → α) (p n : Fin 64) (e : Fin 257) :
    shapeCast S64x64x257 x shapeCasts_S4096x257_S64x64x257 (ix3 p n e) = x (ix2 (flatRow p n) e) := by
  refine shapeCast_apply x _ (ix3 p n e) (ix2 (flatRow p n) e) ?_
  rw [Shape.rowMajor_val_two, Shape.rowMajor_val_three]
  show (64 * p.val + n.val) * 257 + e.val = (p.val * 64 + n.val) * 257 + e.val
  omega

/-- A trailing unit axis added to the mask: entry `(p, n, 0)` is entry `(p, n)`. -/
theorem maskCol_apply {α : Type} (x : S64x64.Idx → α) (p n : Fin 64) :
    shapeCast S64x64x1 x shapeCasts_S64x64_S64x64x1 (ix3 p n (0 : Fin 1)) = x (ix2 p n) := by
  refine shapeCast_apply x _ (ix3 p n (0 : Fin 1)) (ix2 p n) ?_
  rw [Shape.rowMajor_val_two, Shape.rowMajor_val_three]
  show p.val * 64 + n.val = (p.val * 64 + n.val) * 1 + 0
  omega

/-- The mask's unit axis broadcast along the 257 outputs: entry `(p, n, e)` is entry `(p, n, 0)`. -/
theorem maskBcast_apply {α : Type} (x : S64x64x1.Idx → α) (p n : Fin 64) (e : Fin 257) :
    broadcastTo S64x64x257 x broadcasts_S64x64x1_S64x64x257 (ix3 p n e) = x (ix3 p n (0 : Fin 1)) := by
  refine broadcastTo_apply x _ (ix3 p n e) (ix3 p n (0 : Fin 1)) fun a => ?_
  match a with
  | ⟨0, _⟩ => rfl
  | ⟨1, _⟩ => rfl
  | ⟨2, _⟩ => rfl

/-- The first bias row broadcast over the 4096 rows. -/
theorem bias256_apply {α : Type} (b : S1x256.Idx → α) (r : Fin 4096) (h : Fin 256) :
    broadcastTo S4096x256 b broadcasts_S1x256_S4096x256 (ix2 r h) = b (ix2 (0 : Fin 1) h) := by
  refine broadcastTo_apply b _ (ix2 r h) (ix2 (0 : Fin 1) h) fun a => ?_
  match a with
  | ⟨0, _⟩ => rfl
  | ⟨1, _⟩ => rfl

/-- The second bias row broadcast over the 4096 rows. -/
theorem bias257_apply {α : Type} (b : S1x257.Idx → α) (r : Fin 4096) (e : Fin 257) :
    broadcastTo S4096x257 b broadcasts_S1x257_S4096x257 (ix2 r e) = b (ix2 (0 : Fin 1) e) := by
  refine broadcastTo_apply b _ (ix2 r e) (ix2 (0 : Fin 1) e) fun a => ?_
  match a with
  | ⟨0, _⟩ => rfl
  | ⟨1, _⟩ => rfl

/-! ## The two matrix products read at an entry

Each product contracts the left operand's columns with the right operand's rows; into a zero accumulator its entry
`(r, j)` is the sum over the contracted coordinate `k` of left `(r, k)` times right `(k, j)`. The four coordinate facts
of each product's operand indices come first, then the sum re-indexed by the contracted coordinate. -/

theorem lhs_mm1_0 (i : S4096x256.Idx) (q : dot_S4096x8_S8x256_S4096x256_1_0_0_1_n_n.contr.Idx) :
    (dot_S4096x8_S8x256_S4096x256_1_0_0_1_n_n.lhsIdx i q 0).val = (i 0).val := by
  unfold DotDims.lhsIdx
  rw [dif_neg (show ¬(0 : Fin S4096x8.rank) ∈ dot_S4096x8_S8x256_S4096x256_1_0_0_1_n_n.lhsBatch by decide), dif_pos (show (0 : Fin S4096x8.rank) ∈ dot_S4096x8_S8x256_S4096x256_1_0_0_1_n_n.lhsNonContracting by decide)]
  rfl
theorem lhs_mm1_1 (i : S4096x256.Idx) (q : dot_S4096x8_S8x256_S4096x256_1_0_0_1_n_n.contr.Idx) :
    (dot_S4096x8_S8x256_S4096x256_1_0_0_1_n_n.lhsIdx i q 1).val = (q ⟨0, by decide⟩).val :=
  dot_S4096x8_S8x256_S4096x256_1_0_0_1_n_n.lhsIdx_val_of_single rfl i q
theorem rhs_mm1_0 (i : S4096x256.Idx) (q : dot_S4096x8_S8x256_S4096x256_1_0_0_1_n_n.contr.Idx) :
    (dot_S4096x8_S8x256_S4096x256_1_0_0_1_n_n.rhsIdx i q 0).val = (q ⟨0, by decide⟩).val :=
  dot_S4096x8_S8x256_S4096x256_1_0_0_1_n_n.rhsIdx_val_of_single rfl i q
theorem rhs_mm1_1 (i : S4096x256.Idx) (q : dot_S4096x8_S8x256_S4096x256_1_0_0_1_n_n.contr.Idx) :
    (dot_S4096x8_S8x256_S4096x256_1_0_0_1_n_n.rhsIdx i q 1).val = (i 1).val := by
  unfold DotDims.rhsIdx
  rw [dif_neg (show ¬(1 : Fin S8x256.rank) ∈ dot_S4096x8_S8x256_S4096x256_1_0_0_1_n_n.rhsBatch by decide), dif_pos (show (1 : Fin S8x256.rank) ∈ dot_S4096x8_S8x256_S4096x256_1_0_0_1_n_n.rhsNonContracting by decide)]
  rfl

/-- The first product at `(r, h)`: the sum over the 8 coordinates. -/
theorem mm1_apply (l : FVec Ideal S4096x8 .bf16) (w : FVec Ideal S8x256 .bf16) (r : Fin 4096) (h : Fin 256) :
    matmul dot_S4096x8_S8x256_S4096x256_1_0_0_1_n_n none l w (constant (F := Ideal) S4096x256 .f32 0x00000000#32) (ix2 r h)
      = ∑ c : Fin 8, l (ix2 r c) * w (ix2 c h) := by
  simp only [matmul]
  rw [Ideal.matmul_constant_zero_apply, ← Equiv.sum_comp (contrEquiv1 dot_S4096x8_S8x256_S4096x256_1_0_0_1_n_n 8 rfl rfl).symm]
  refine Finset.sum_congr rfl fun k _ => ?_
  have hk := contrEquiv1_symm_val dot_S4096x8_S8x256_S4096x256_1_0_0_1_n_n 8 rfl rfl k
  have el : dot_S4096x8_S8x256_S4096x256_1_0_0_1_n_n.lhsIdx (ix2 r h) ((contrEquiv1 dot_S4096x8_S8x256_S4096x256_1_0_0_1_n_n 8 rfl rfl).symm k) = ix2 r k := funext fun a => Fin.ext (by
    match a with
    | ⟨0, _⟩ => exact lhs_mm1_0 _ _
    | ⟨1, _⟩ => exact (lhs_mm1_1 _ _).trans hk)
  have er : dot_S4096x8_S8x256_S4096x256_1_0_0_1_n_n.rhsIdx (ix2 r h) ((contrEquiv1 dot_S4096x8_S8x256_S4096x256_1_0_0_1_n_n 8 rfl rfl).symm k) = ix2 k h := funext fun a => Fin.ext (by
    match a with
    | ⟨0, _⟩ => exact (rhs_mm1_0 _ _).trans hk
    | ⟨1, _⟩ => exact rhs_mm1_1 _ _)
  rw [el, er]

theorem lhs_mm2_0 (i : S4096x257.Idx) (q : dot_S4096x256_S256x257_S4096x257_1_0_0_1_n_n.contr.Idx) :
    (dot_S4096x256_S256x257_S4096x257_1_0_0_1_n_n.lhsIdx i q 0).val = (i 0).val := by
  unfold DotDims.lhsIdx
  rw [dif_neg (show ¬(0 : Fin S4096x256.rank) ∈ dot_S4096x256_S256x257_S4096x257_1_0_0_1_n_n.lhsBatch by decide), dif_pos (show (0 : Fin S4096x256.rank) ∈ dot_S4096x256_S256x257_S4096x257_1_0_0_1_n_n.lhsNonContracting by decide)]
  rfl
theorem lhs_mm2_1 (i : S4096x257.Idx) (q : dot_S4096x256_S256x257_S4096x257_1_0_0_1_n_n.contr.Idx) :
    (dot_S4096x256_S256x257_S4096x257_1_0_0_1_n_n.lhsIdx i q 1).val = (q ⟨0, by decide⟩).val :=
  dot_S4096x256_S256x257_S4096x257_1_0_0_1_n_n.lhsIdx_val_of_single rfl i q
theorem rhs_mm2_0 (i : S4096x257.Idx) (q : dot_S4096x256_S256x257_S4096x257_1_0_0_1_n_n.contr.Idx) :
    (dot_S4096x256_S256x257_S4096x257_1_0_0_1_n_n.rhsIdx i q 0).val = (q ⟨0, by decide⟩).val :=
  dot_S4096x256_S256x257_S4096x257_1_0_0_1_n_n.rhsIdx_val_of_single rfl i q
theorem rhs_mm2_1 (i : S4096x257.Idx) (q : dot_S4096x256_S256x257_S4096x257_1_0_0_1_n_n.contr.Idx) :
    (dot_S4096x256_S256x257_S4096x257_1_0_0_1_n_n.rhsIdx i q 1).val = (i 1).val := by
  unfold DotDims.rhsIdx
  rw [dif_neg (show ¬(1 : Fin S256x257.rank) ∈ dot_S4096x256_S256x257_S4096x257_1_0_0_1_n_n.rhsBatch by decide), dif_pos (show (1 : Fin S256x257.rank) ∈ dot_S4096x256_S256x257_S4096x257_1_0_0_1_n_n.rhsNonContracting by decide)]
  rfl

/-- The second product at `(r, e)`: the sum over the 256 hidden units. -/
theorem mm2_apply (l : FVec Ideal S4096x256 .bf16) (w : FVec Ideal S256x257 .bf16) (r : Fin 4096) (e : Fin 257) :
    matmul dot_S4096x256_S256x257_S4096x257_1_0_0_1_n_n none l w (constant (F := Ideal) S4096x257 .f32 0x00000000#32) (ix2 r e)
      = ∑ h : Fin 256, l (ix2 r h) * w (ix2 h e) := by
  simp only [matmul]
  rw [Ideal.matmul_constant_zero_apply, ← Equiv.sum_comp (contrEquiv1 dot_S4096x256_S256x257_S4096x257_1_0_0_1_n_n 256 rfl rfl).symm]
  refine Finset.sum_congr rfl fun k _ => ?_
  have hk := contrEquiv1_symm_val dot_S4096x256_S256x257_S4096x257_1_0_0_1_n_n 256 rfl rfl k
  have el : dot_S4096x256_S256x257_S4096x257_1_0_0_1_n_n.lhsIdx (ix2 r e) ((contrEquiv1 dot_S4096x256_S256x257_S4096x257_1_0_0_1_n_n 256 rfl rfl).symm k) = ix2 r k := funext fun a => Fin.ext (by
    match a with
    | ⟨0, _⟩ => exact lhs_mm2_0 _ _
    | ⟨1, _⟩ => exact (lhs_mm2_1 _ _).trans hk)
  have er : dot_S4096x256_S256x257_S4096x257_1_0_0_1_n_n.rhsIdx (ix2 r e) ((contrEquiv1 dot_S4096x256_S256x257_S4096x257_1_0_0_1_n_n 256 rfl rfl).symm k) = ix2 k e := funext fun a => Fin.ext (by
    match a with
    | ⟨0, _⟩ => exact (rhs_mm2_0 _ _).trans hk
    | ⟨1, _⟩ => exact rhs_mm2_1 _ _)
  rw [el, er]

/-! ## The two layers at an entry, and the payload -/

/-- FIRST LAYER at row `r`, hidden unit `h`: the product into a zero accumulator, the bias row, and the maximum with 0
    (the narrowing of the operands is the identity on extended reals). -/
theorem layer1_apply (x : FVec Ideal S4096x8 .f32) (w : FVec Ideal S8x256 .f32) (b : FVec Ideal S1x256 .f32)
    (r : Fin 4096) (h : Fin 256) :
    maximumf
        (addf (matmul dot_S4096x8_S8x256_S4096x256_1_0_0_1_n_n none (truncf .bf16 x bitsLt_bf16_f32) (truncf .bf16 w bitsLt_bf16_f32)
            (constant (F := Ideal) S4096x256 .f32 0x00000000#32))
          (broadcastTo S4096x256 b broadcasts_S1x256_S4096x256))
        (broadcast S4096x256 (Scalar.ofBits (F := Ideal) .f32 0x00000000#32)) (ix2 r h)
      = max ((∑ c : Fin 8, x (ix2 r c) * w (ix2 c h)) + b (ix2 (0 : Fin 1) h)) 0 := by
  rw [maximumf_apply, addf_apply, broadcast_apply, mm1_apply, bias256_apply]
  show max _ (Ideal.ofBits .f32 0x00000000#32) = _
  rw [Ideal.ofBits_zero_f32]
  rfl

/-- SECOND LAYER at row `r`, output unit `e`, over any hidden activations `y`. -/
theorem layer2_apply (y : FVec Ideal S4096x256 .f32) (w : FVec Ideal S256x257 .f32) (b : FVec Ideal S1x257 .f32)
    (r : Fin 4096) (e : Fin 257) :
    maximumf
        (addf (matmul dot_S4096x256_S256x257_S4096x257_1_0_0_1_n_n none (truncf .bf16 y bitsLt_bf16_f32) (truncf .bf16 w bitsLt_bf16_f32)
            (constant (F := Ideal) S4096x257 .f32 0x00000000#32))
          (broadcastTo S4096x257 b broadcasts_S1x257_S4096x257))
        (broadcast S4096x257 (Scalar.ofBits (F := Ideal) .f32 0x00000000#32)) (ix2 r e)
      = max ((∑ h : Fin 256, y (ix2 r h) * w (ix2 h e)) + b (ix2 (0 : Fin 1) e)) 0 := by
  rw [maximumf_apply, addf_apply, broadcast_apply, mm2_apply, bias257_apply]
  show max _ (Ideal.ofBits .f32 0x00000000#32) = _
  rw [Ideal.ofBits_zero_f32]
  rfl

theorem pay3_apply (v2 : Vec Ideal S64x64x8 .f32) (v14 : Vec Ideal S8x256 .f32) (v16 : Vec Ideal S1x256 .f32)
    (v24 : Vec Ideal S256x257 .f32) (v26 : Vec Ideal S1x257 .f32) (p n : Fin 64) (e : Fin 257) :
    k0_pay3 (F := Ideal) v2 v14 v16 v24 v26 (ix3 p n e)
      = Cert.AgentQ.encoded (fun c h => v14 (ix2 c h)) (fun h => v16 (ix2 (0 : Fin 1) h)) (fun h e' => v24 (ix2 h e'))
          (fun e' => v26 (ix2 (0 : Fin 1) e')) (fun c => v2 (ix3 p n c)) e
        * Cert.AgentQ.present (fun c => v2 (ix3 p n c)) := by
  unfold k0_pay3
  dsimp only
  rw [mulf_apply, unflatten_apply, maskBcast_apply, maskCol_apply, shapeCast_self v2, shapeCast_self v16,
    shapeCast_self v26, mask_apply, layer2_apply]
  unfold Cert.AgentQ.encoded Cert.AgentQ.hidden
  refine congrArg (· * _) (congrArg (max · 0) (congrArg (· + _) (Finset.sum_congr rfl fun h _ => congrArg (· * _) ?_)))
  rw [layer1_apply]
  refine congrArg (max · 0) (congrArg (· + _) (Finset.sum_congr rfl fun c _ => congrArg (· * _) ?_))
  exact flatten_apply v2 p n c

end Cert.KernelIdeal.Body

end
-- ==== Proof.KernelHead.lean ====
/-
  The Q head of one block of 64 rows, read at one row and one action.

  The block's second payload sums the masked encodings over the 64 neighbours, places that sum (257 numbers) after the
  row's own state (8 numbers), and sends the 265 numbers through the Q head: an affine map to 256 hidden units, the
  maximum with 0, an affine map to 30 actions. Over the extended reals every format change is the identity, each product
  of matrices into the zero array is the plain sum over the contracted axis, and a bias of one row broadcast along the
  rows is that row. So the payload at (row, action) is the specification's `qvalue` of the specification's `feature`
  of the row's own state and the neighbour sums. The block's other payload reshapes a [64,8] array to its own shape.
-/
import proofs.«112311_j9594956939555_1_alg».proof.Proof.Gen.KernelIdeal.Skeleton
import proofs.«112311_j9594956939555_1_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

theorem pay2_eq (v0 : Vec Ideal S64x8 .f32) : k0_pay2 (F := Ideal) v0 = v0 := by
  unfold k0_pay2
  exact shapeCast_self v0 _

/-- The sum over the neighbour axis of a [64,64,257] array, read at row p and lane e. -/
theorem laneSum_apply (v : FVec Ideal S64x64x257 .f32) (p : Fin 64) (e : Fin 257) :
    multiReduction (F := Ideal) .add [1] S64x257 v 0x00000000#32 reduces_S64x64x257_S64x257 (.inl rfl) rfl (ix2 p e)
      = ∑ n : Fin 64, v (ix3 p n e) := by
  refine (Ideal.multiReduction_add_single v 0x00000000#32 reduces_S64x64x257_S64x257 (.inl rfl) rfl (ix2 p e)).trans ?_
  refine Finset.sum_congr rfl fun n _ => congrArg v ?_
  funext a
  match a with
  | ⟨0, _⟩ => rfl
  | ⟨1, _⟩ => rfl
  | ⟨2, _⟩ => rfl

/-- The concatenation along the feature axis of the own state and the pooled encoding, read at row p and
    position j: the Q head's input. -/
theorem concat_apply (x₁ : FVec Ideal S64x8 .f32) (x₂ : FVec Ideal S64x257 .f32) (p : Fin 64) (j : Fin 265) :
    concatenate S64x265 1 [⟨S64x8, x₁⟩, ⟨S64x257, x₂⟩] concatenates_S64x8_S64x257_S64x265_d1 (ix2 p j)
      = Cert.AgentQ.feature (fun c => x₁ (ix2 p c)) (fun e => x₂ (ix2 p e)) j := by
  unfold Cert.AgentQ.feature
  split
  · next h =>
    exact concatenate_pair_apply_left 1 x₁ x₂ _ (ix2 p j) rfl (ix2 p ⟨j.val, h⟩)
      (fun b => match b with | ⟨0, _⟩ => rfl | ⟨1, _⟩ => rfl)
  · next h =>
    exact concatenate_pair_apply_right 1 x₁ x₂ _ (ix2 p j) rfl rfl
      (ix2 p ⟨j.val - 8, by have := j.isLt; omega⟩)
      (fun b hb => match b, hb with | ⟨0, _⟩, _ => rfl | ⟨1, _⟩, hb => absurd rfl hb)
      (by show j.val - 8 + 8 = j.val; omega)

/-! The first head product [64,265] × [265,256]: the operand indices at an output index and a contraction index. -/

theorem lhs_head1_0 (i : S64x256.Idx) (q : dot_S64x265_S265x256_S64x256_1_0_0_1_n_n.contr.Idx) :
    (dot_S64x265_S265x256_S64x256_1_0_0_1_n_n.lhsIdx i q 0).val = (i 0).val := by
  unfold DotDims.lhsIdx
  rw [dif_neg (show ¬(0 : Fin S64x265.rank) ∈ dot_S64x265_S265x256_S64x256_1_0_0_1_n_n.lhsBatch by decide), dif_pos (show (0 : Fin S64x265.rank) ∈ dot_S64x265_S265x256_S64x256_1_0_0_1_n_n.lhsNonContracting by decide)]
  rfl
theorem lhs_head1_1 (i : S64x256.Idx) (q : dot_S64x265_S265x256_S64x256_1_0_0_1_n_n.contr.Idx) :
    (dot_S64x265_S265x256_S64x256_1_0_0_1_n_n.lhsIdx i q 1).val = (q ⟨0, by decide⟩).val :=
  dot_S64x265_S265x256_S64x256_1_0_0_1_n_n.lhsIdx_val_of_single rfl i q
theorem rhs_head1_0 (i : S64x256.Idx) (q : dot_S64x265_S265x256_S64x256_1_0_0_1_n_n.contr.Idx) :
    (dot_S64x265_S265x256_S64x256_1_0_0_1_n_n.rhsIdx i q 0).val = (q ⟨0, by decide⟩).val :=
  dot_S64x265_S265x256_S64x256_1_0_0_1_n_n.rhsIdx_val_of_single rfl i q
theorem rhs_head1_1 (i : S64x256.Idx) (q : dot_S64x265_S265x256_S64x256_1_0_0_1_n_n.contr.Idx) :
    (dot_S64x265_S265x256_S64x256_1_0_0_1_n_n.rhsIdx i q 1).val = (i 1).val := by
  unfold DotDims.rhsIdx
  rw [dif_neg (show ¬(1 : Fin S265x256.rank) ∈ dot_S64x265_S265x256_S64x256_1_0_0_1_n_n.rhsBatch by decide), dif_pos (show (1 : Fin S265x256.rank) ∈ dot_S64x265_S265x256_S64x256_1_0_0_1_n_n.rhsNonContracting by decide)]
  rfl

/-- The first head product into zero, read at row p and hidden unit k: the sum over the 265 feature positions. -/
theorem matmul1_apply (l : FVec Ideal S64x265 .bf16) (r : FVec Ideal S265x256 .bf16) (p : Fin 64) (k : Fin 256) :
    matmul dot_S64x265_S265x256_S64x256_1_0_0_1_n_n none l r (constant (F := Ideal) S64x256 .f32 0x00000000#32) (ix2 p k)
      = ∑ j : Fin 265, l (ix2 p j) * r (ix2 j k) := by
  simp only [matmul]
  rw [Ideal.matmul_constant_zero_apply, ← Equiv.sum_comp (ValueIdx.contrEquiv1 dot_S64x265_S265x256_S64x256_1_0_0_1_n_n 265 rfl rfl).symm]
  refine Finset.sum_congr rfl fun j _ => ?_
  have hj := ValueIdx.contrEquiv1_symm_val dot_S64x265_S265x256_S64x256_1_0_0_1_n_n 265 rfl rfl j
  have el : dot_S64x265_S265x256_S64x256_1_0_0_1_n_n.lhsIdx (ix2 p k) ((ValueIdx.contrEquiv1 dot_S64x265_S265x256_S64x256_1_0_0_1_n_n 265 rfl rfl).symm j) = ix2 p j := funext fun a => Fin.ext (by
    match a with
    | ⟨0, _⟩ => exact lhs_head1_0 _ _
    | ⟨1, _⟩ => exact (lhs_head1_1 _ _).trans hj)
  have er : dot_S64x265_S265x256_S64x256_1_0_0_1_n_n.rhsIdx (ix2 p k) ((ValueIdx.contrEquiv1 dot_S64x265_S265x256_S64x256_1_0_0_1_n_n 265 rfl rfl).symm j) = ix2 j k := funext fun a => Fin.ext (by
    match a with
    | ⟨0, _⟩ => exact (rhs_head1_0 _ _).trans hj
    | ⟨1, _⟩ => exact rhs_head1_1 _ _)
  rw [el, er]

/-! The second head product [64,256] × [256,30]: the same reading. -/

theorem lhs_head2_0 (i : S64x30.Idx) (q : dot_S64x256_S256x30_S64x30_1_0_0_1_n_n.contr.Idx) :
    (dot_S64x256_S256x30_S64x30_1_0_0_1_n_n.lhsIdx i q 0).val = (i 0).val := by
  unfold DotDims.lhsIdx
  rw [dif_neg (show ¬(0 : Fin S64x256.rank) ∈ dot_S64x256_S256x30_S64x30_1_0_0_1_n_n.lhsBatch by decide), dif_pos (show (0 : Fin S64x256.rank) ∈ dot_S64x256_S256x30_S64x30_1_0_0_1_n_n.lhsNonContracting by decide)]
  rfl
theorem lhs_head2_1 (i : S64x30.Idx) (q : dot_S64x256_S256x30_S64x30_1_0_0_1_n_n.contr.Idx) :
    (dot_S64x256_S256x30_S64x30_1_0_0_1_n_n.lhsIdx i q 1).val = (q ⟨0, by decide⟩).val :=
  dot_S64x256_S256x30_S64x30_1_0_0_1_n_n.lhsIdx_val_of_single rfl i q
theorem rhs_head2_0 (i : S64x30.Idx) (q : dot_S64x256_S256x30_S64x30_1_0_0_1_n_n.contr.Idx) :
    (dot_S64x256_S256x30_S64x30_1_0_0_1_n_n.rhsIdx i q 0).val = (q ⟨0, by decide⟩).val :=
  dot_S64x256_S256x30_S64x30_1_0_0_1_n_n.rhsIdx_val_of_single rfl i q
theorem rhs_head2_1 (i : S64x30.Idx) (q : dot_S64x256_S256x30_S64x30_1_0_0_1_n_n.contr.Idx) :
    (dot_S64x256_S256x30_S64x30_1_0_0_1_n_n.rhsIdx i q 1).val = (i 1).val := by
  unfold DotDims.rhsIdx
  rw [dif_neg (show ¬(1 : Fin S256x30.rank) ∈ dot_S64x256_S256x30_S64x30_1_0_0_1_n_n.rhsBatch by decide), dif_pos (show (1 : Fin S256x30.rank) ∈ dot_S64x256_S256x30_S64x30_1_0_0_1_n_n.rhsNonContracting by decide)]
  rfl

/-- The second head product into zero, read at row p and action a: the sum over the 256 hidden units. -/
theorem matmul2_apply (l : FVec Ideal S64x256 .bf16) (r : FVec Ideal S256x30 .bf16) (p : Fin 64) (a : Fin 30) :
    matmul dot_S64x256_S256x30_S64x30_1_0_0_1_n_n none l r (constant (F := Ideal) S64x30 .f32 0x00000000#32) (ix2 p a)
      = ∑ k : Fin 256, l (ix2 p k) * r (ix2 k a) := by
  simp only [matmul]
  rw [Ideal.matmul_constant_zero_apply, ← Equiv.sum_comp (ValueIdx.contrEquiv1 dot_S64x256_S256x30_S64x30_1_0_0_1_n_n 256 rfl rfl).symm]
  refine Finset.sum_congr rfl fun k _ => ?_
  have hk := ValueIdx.contrEquiv1_symm_val dot_S64x256_S256x30_S64x30_1_0_0_1_n_n 256 rfl rfl k
  have el : dot_S64x256_S256x30_S64x30_1_0_0_1_n_n.lhsIdx (ix2 p a) ((ValueIdx.contrEquiv1 dot_S64x256_S256x30_S64x30_1_0_0_1_n_n 256 rfl rfl).symm k) = ix2 p k := funext fun b => Fin.ext (by
    match b with
    | ⟨0, _⟩ => exact lhs_head2_0 _ _
    | ⟨1, _⟩ => exact (lhs_head2_1 _ _).trans hk)
  have er : dot_S64x256_S256x30_S64x30_1_0_0_1_n_n.rhsIdx (ix2 p a) ((ValueIdx.contrEquiv1 dot_S64x256_S256x30_S64x30_1_0_0_1_n_n 256 rfl rfl).symm k) = ix2 k a := funext fun b => Fin.ext (by
    match b with
    | ⟨0, _⟩ => exact (rhs_head2_0 _ _).trans hk
    | ⟨1, _⟩ => exact rhs_head2_1 _ _)
  rw [el, er]

/-- The hidden bias [1,256] broadcast along the rows, read at row p and hidden unit k. -/
theorem rowBroadcast256_apply (b : FVec Ideal S1x256 .f32) (p : Fin 64) (k : Fin 256) :
    broadcastTo S64x256 b broadcasts_S1x256_S64x256 (ix2 p k) = b (ix2 (0 : Fin 1) k) :=
  broadcastTo_apply b _ (ix2 p k) (ix2 (0 : Fin 1) k) (fun a => match a with
    | ⟨0, _⟩ => rfl
    | ⟨1, _⟩ => rfl)

/-- The output bias [1,30] broadcast along the rows, read at row p and action a. -/
theorem rowBroadcast30_apply (b : FVec Ideal S1x30 .f32) (p : Fin 64) (a : Fin 30) :
    broadcastTo S64x30 b broadcasts_S1x30_S64x30 (ix2 p a) = b (ix2 (0 : Fin 1) a) :=
  broadcastTo_apply b _ (ix2 p a) (ix2 (0 : Fin 1) a) (fun c => match c with
    | ⟨0, _⟩ => rfl
    | ⟨1, _⟩ => rfl)

theorem pay1_apply (v1 : FVec Ideal S64x8 .f32) (v37 : FVec Ideal S64x64x257 .f32) (v40 : Vec Ideal S265x256 .f32)
    (v42 : Vec Ideal S1x256 .f32) (v50 : Vec Ideal S256x30 .f32) (v52 : Vec Ideal S1x30 .f32) (p : Fin 64) (a : Fin 30) :
    k0_pay1 (F := Ideal) v1 v37 v40 v42 v50 v52 (ix2 p a)
      = Cert.AgentQ.qvalue (fun j k => v40 (ix2 j k)) (fun k => v42 (ix2 (0 : Fin 1) k)) (fun k a' => v50 (ix2 k a'))
          (fun a' => v52 (ix2 (0 : Fin 1) a'))
          (Cert.AgentQ.feature (fun c => v1 (ix2 p c)) (fun e => ∑ n : Fin 64, v37 (ix3 p n e))) a := by
  unfold k0_pay1
  dsimp only
  unfold Cert.AgentQ.qvalue
  refine (addf_apply _ _ _).trans (congrArg₂ (· + ·) ?_ ?_)
  · -- the output layer: the sum over the hidden units
    refine (matmul2_apply _ _ p a).trans (Finset.sum_congr rfl fun k _ => ?_)
    refine congrArg₂ (· * ·) ?_ (truncf_apply (φ := .f32) (ψ := .bf16) _ bitsLt_bf16_f32 _)
    refine (truncf_apply (φ := .f32) (ψ := .bf16) _ bitsLt_bf16_f32 _).trans ((maximumf_apply _ _ _).trans (congrArg₂ max ?_ ?_))
    · -- the hidden layer before its ReLU: the sum over the feature positions, plus the bias
      refine (addf_apply _ _ _).trans (congrArg₂ (· + ·) ?_ ?_)
      · refine (matmul1_apply _ _ p k).trans (Finset.sum_congr rfl fun j _ => ?_)
        refine congrArg₂ (· * ·) ?_ (truncf_apply (φ := .f32) (ψ := .bf16) _ bitsLt_bf16_f32 _)
        refine (truncf_apply (φ := .f32) (ψ := .bf16) _ bitsLt_bf16_f32 _).trans ((concat_apply _ _ p j).trans ?_)
        exact congrArg (fun f => Cert.AgentQ.feature (fun c => v1 (ix2 p c)) f j)
          (funext fun e => laneSum_apply v37 p e)
      · exact (rowBroadcast256_apply _ p k).trans (congrFun (shapeCast_self v42 _) _)
    · exact (broadcast_apply _ _).trans Ideal.ofBits_zero_f32
  · exact (rowBroadcast30_apply _ p a).trans (congrFun (shapeCast_self v52 _) _)

end Cert.KernelIdeal.Body

end
-- ==== Proof.KernelHost.lean ====
/-
  What the region finds in its window arrays.

  Before the region the program slices the packed state array [8192, 520] into the own state (columns 0..7) and the
  neighbours (columns 8..519), reshapes the neighbours to [8192, 64, 8], and reshapes the four rank-1 biases to one-row
  matrices. Read at an index: the own state of row `r` at coordinate `k` is column `k` of row `r`; coordinate `k` of
  neighbour `n` of row `r` is column `8 + (8 n + k)` (row-major position `8 n + k` within the 512 neighbour columns, after
  the offset 8); and entry `(0, j)` of a one-row bias is entry `j` of the bias.
-/
import proofs.«112311_j9594956939555_1_alg».proof.Proof.Gen.KernelIdeal.Frame
import proofs.«112311_j9594956939555_1_alg».proof.Proof.Spec
import Idealize.ShloMosaic.Lib.ValueIdx
import Idealize.ShloMosaic.Lib.Pipeline.Value
import Idealize.ShloMosaic.Lib.StableHlo.Run

noncomputable section

namespace Cert.KernelIdeal.Body

open Cert.KernelIdeal Cert.KernelIdeal.Gen Idealize.ShloMosaic Idealize.ShloMosaic.TcCoe Idealize.ShloMosaic.ValueIdx

variable (m : (ℓ : Loc nD τ sig) → Buf (Elt Ideal) ℓ)

/-! ## What the host operations before the region leave in the window arrays

Seven host operations run before the region: two column slices of the packed state array (columns 0..7, the own state;
columns 8..519, the 64 neighbours), the reshape of the second slice to rows × neighbours × coordinates, and the four
rank-1 biases reshaped to one-row matrices. Each array the region then finds is that operation's term over the launch
memory; read at an index, a slice shifts the column by its offset and a reshape keeps the row-major position. -/

/-- The own-state array is the slice of columns 0..7 of the packed state array. -/
theorem V_v0_eq (c : Dev nD) :
    (V m c main_v0 : S8192x8.Idx → EReal)
      = extractStridedSlice S8192x8 ![0, 0] (m ((c : Thread nD τ).loc main_arg0)) slices_S8192x520_S8192x8_0_0 := by
  dsimp only [Gen.V, Gen.hostOps0]; after_results

/-- The neighbour array is the slice of columns 8..519 of the packed state array, reshaped to [8192, 64, 8]. -/
theorem V_v2_eq (c : Dev nD) :
    (V m c main_v2 : S8192x64x8.Idx → EReal)
      = shapeCast S8192x64x8 (extractStridedSlice S8192x512 ![0, 8] (m ((c : Thread nD τ).loc main_arg0)) slices_S8192x520_S8192x512_0_8)
          shapeCasts_S8192x512_S8192x64x8 := by
  dsimp only [Gen.V, Gen.hostOps0]; after_results; rfl

/-- The first encoder bias as a one-row matrix. -/
theorem V_v3_eq (c : Dev nD) :
    (V m c main_v3 : S1x256.Idx → EReal) = shapeCast S1x256 (m ((c : Thread nD τ).loc main_arg2)) shapeCasts_S256_S1x256 := by
  dsimp only [Gen.V, Gen.hostOps0]; after_results; rfl

/-- The second encoder bias as a one-row matrix. -/
theorem V_v4_eq (c : Dev nD) :
    (V m c main_v4 : S1x257.Idx → EReal) = shapeCast S1x257 (m ((c : Thread nD τ).loc main_arg4)) shapeCasts_S257_S1x257 := by
  dsimp only [Gen.V, Gen.hostOps0]; after_results; rfl

/-- The first head bias as a one-row matrix. -/
theorem V_v5_eq (c : Dev nD) :
    (V m c main_v5 : S1x256.Idx → EReal) = shapeCast S1x256 (m ((c : Thread nD τ).loc main_arg6)) shapeCasts_S256_S1x256 := by
  dsimp only [Gen.V, Gen.hostOps0]; after_results; rfl

/-- The second head bias as a one-row matrix. -/
theorem V_v6_eq (c : Dev nD) :
    (V m c main_v6 : S1x30.Idx → EReal) = shapeCast S1x30 (m ((c : Thread nD τ).loc main_arg8)) shapeCasts_S30_S1x30 := by
  dsimp only [Gen.V, Gen.hostOps0]; after_results; rfl

/-- A rank-1 array of `n` numbers viewed as a one-row matrix reads, at `(0, j)`, entry `j`. -/
theorem rowOf_apply {α : Type} {n : ℕ} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) := by
  refine shapeCast_apply x h (ix2 (0 : Fin 1) j) (ix1 j) ?_
  rw [Shape.rowMajor_val_one, Shape.rowMajor_val_two]
  show j.val = 0 * n + j.val
  omega

theorem V_self (c : Dev nD) (r : Fin 8192) (k : Fin 8) :
    V m c main_v0 (ix2 r k) = Cert.AgentQ.selfOf (m ((c : Thread nD τ).loc main_arg0)) r k := by
  refine (congrFun (V_v0_eq m c) (ix2 r k)).trans ?_
  unfold Cert.AgentQ.selfOf
  refine extractStridedSlice_apply _ _ _ (ix2 r k) (ix2 r ⟨k.val, by have := k.isLt; omega⟩) fun a => ?_
  match a with
  | ⟨0, _⟩ => show r.val = 0 + r.val; omega
  | ⟨1, _⟩ => show k.val = 0 + k.val; omega

theorem V_surr (c : Dev nD) (r : Fin 8192) (n : Fin 64) (k : Fin 8) :
    V m c main_v2 (ix3 r n k) = Cert.AgentQ.surrOf (m ((c : Thread nD τ).loc main_arg0)) r n k := by
  refine (congrFun (V_v2_eq m c) (ix3 r n k)).trans ?_
  unfold Cert.AgentQ.surrOf
  refine (shapeCast_apply _ _ (ix3 r n k)
    (ix2 r (⟨8 * n.val + k.val, by have := k.isLt; have := n.isLt; omega⟩ : Fin 512)) ?_).trans ?_
  · rw [Shape.rowMajor_val_two, Shape.rowMajor_val_three]
    show r.val * 512 + (8 * n.val + k.val) = (r.val * 64 + n.val) * 8 + k.val
    omega
  · refine extractStridedSlice_apply _ _ _ _
      (ix2 r ⟨8 + (8 * n.val + k.val), by have := k.isLt; have := n.isLt; omega⟩) fun a => ?_
    match a with
    | ⟨0, _⟩ => show r.val = 0 + r.val; omega
    | ⟨1, _⟩ => show 8 + (8 * n.val + k.val) = 8 + (8 * n.val + k.val); rfl

theorem V_b1 (c : Dev nD) (h : Fin 256) : V m c main_v3 (ix2 (0 : Fin 1) h) = m ((c : Thread nD τ).loc main_arg2) (ix1 h) :=
  (congrFun (V_v3_eq m c) (ix2 (0 : Fin 1) h)).trans (rowOf_apply _ _ h)
theorem V_b2 (c : Dev nD) (e : Fin 257) : V m c main_v4 (ix2 (0 : Fin 1) e) = m ((c : Thread nD τ).loc main_arg4) (ix1 e) :=
  (congrFun (V_v4_eq m c) (ix2 (0 : Fin 1) e)).trans (rowOf_apply _ _ e)
theorem V_qb1 (c : Dev nD) (k : Fin 256) : V m c main_v5 (ix2 (0 : Fin 1) k) = m ((c : Thread nD τ).loc main_arg6) (ix1 k) :=
  (congrFun (V_v5_eq m c) (ix2 (0 : Fin 1) k)).trans (rowOf_apply _ _ k)
theorem V_qb2 (c : Dev nD) (a : Fin 30) : V m c main_v6 (ix2 (0 : Fin 1) a) = m ((c : Thread nD τ).loc main_arg8) (ix1 a) :=
  (congrFun (V_v6_eq m c) (ix2 (0 : Fin 1) a)).trans (rowOf_apply _ _ a)

end Cert.KernelIdeal.Body

end
-- ==== Proof.KernelValue.lean ====
/-
  The idealized kernel's result array is the specification's function of the launch arrays.

  The pallas_call runs 128 grid points; point t works on batch rows 64·t … 64·t + 63: its own-state window is rows
  64·t + p of the sliced state array, its neighbour window the same rows of the reshaped slice, the eight weight and
  bias windows are whole arrays at every point, and the output window is rows 64·t + p of the result. The body's value at
  block position (p, a) is the specification's row function of block row p (the two payload lemmas), block row p is array
  row 64·t + p (the index maps, decided over the grid), and the arrays the region finds are the launch arrays sliced and
  reshaped by the host operations before the call. The 128 output blocks tile the 8192 rows, so the array ends as the
  specification everywhere.
-/
import proofs.«112311_j9594956939555_1_alg».proof.Proof.Gen.KernelIdeal.Value
import proofs.«112311_j9594956939555_1_alg».proof.Proof.KernelEnc
import proofs.«112311_j9594956939555_1_alg».proof.Proof.KernelHead
import proofs.«112311_j9594956939555_1_alg».proof.Proof.KernelHost
import proofs.«112311_j9594956939555_1_alg».proof.Proof.Spec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's result array at the launch contents of core `c`'s nine argument arrays. -/
abbrev specArr (c : Dev nD) : S8192x30.Idx → EReal :=
  Cert.AgentQ.Q (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The body's value at block position (p, a), over arbitrary block contents: the Q head of the own-state row and
    the pooled encoding of the neighbour rows, all read from the blocks. -/
theorem body_apply (x0 : Vec Ideal S64x8 .f32) (x1 : Vec Ideal S64x64x8 .f32) (x2 : Vec Ideal S8x256 .f32)
    (x3 : Vec Ideal S1x256 .f32) (x4 : Vec Ideal S256x257 .f32) (x5 : Vec Ideal S1x257 .f32) (x6 : Vec Ideal S265x256 .f32)
    (x7 : Vec Ideal S1x256 .f32) (x8 : Vec Ideal S256x30 .f32) (x9 : Vec Ideal S1x30 .f32) (p : Fin 64) (a : Fin 30) :
    k0_pay1 (F := Ideal) (k0_pay2 x0) (k0_pay3 x1 x2 x3 x4 x5) x6 x7 x8 x9 (ix2 p a)
      = Cert.AgentQ.qvalue (fun j k => x6 (ix2 j k)) (fun k => x7 (ix2 (0 : Fin 1) k)) (fun k a' => x8 (ix2 k a'))
          (fun a' => x9 (ix2 (0 : Fin 1) a'))
          (Cert.AgentQ.feature (fun k => x0 (ix2 p k))
            (Cert.AgentQ.pooled (fun c h => x2 (ix2 c h)) (fun h => x3 (ix2 (0 : Fin 1) h)) (fun h e => x4 (ix2 h e))
              (fun e => x5 (ix2 (0 : Fin 1) e)) (fun n k => x1 (ix3 p n k)))) a := by
  rw [pay2_eq]
  refine (pay1_apply x0 (k0_pay3 x1 x2 x3 x4 x5) x6 x7 x8 x9 p a).trans ?_
  simp only [pay3_apply]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the two state windows and the output move with the point along the rows,
    every other coordinate and every weight or bias window stays at block 0. -/
theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

theorem point_lt (t : Fin cfg0.N) : t.val < 128 := by
  have h := t.isLt
  have e : cfg0.N = 128 := N_0
  omega

/-- The array row that block row `p` of grid point `t` is. -/
def rowOf (t : Fin cfg0.N) (p : Fin 64) : Fin 8192 :=
  ⟨64 * t.val + p.val, by have := point_lt t; have := p.isLt; omega⟩

/-! ## Each input block, read at a block position, is its array at the array position -/

theorem blk_self (c : Dev nD) (t : Fin cfg0.N) (p : Fin 64) (k : Fin 8) :
    iblk m c 0 t (ix2 p k) = V m c main_v0 (ix2 (rowOf t p) k) := by
  show V m c main_v0 (((cfg0.win 0).blk t).view.emb (ix2 p k)) = V m c main_v0 (ix2 (rowOf t p) k)
  obtain ⟨⟨e0, e1⟩, -⟩ := idx_facts t
  refine congrArg (V m c main_v0) (funext fun a => Fin.ext ?_)
  match a with
  | ⟨0, _⟩ => show win0_0.index t (0 : Fin 2) * 64 + 1 * p.val = 64 * t.val + p.val; omega
  | ⟨1, _⟩ => show win0_0.index t (1 : Fin 2) * 8 + 1 * k.val = k.val; omega

theorem blk_surr (c : Dev nD) (t : Fin cfg0.N) (p n : Fin 64) (k : Fin 8) :
    iblk m c 1 t (ix3 p n k) = V m c main_v2 (ix3 (rowOf t p) n k) := by
  show V m c main_v2 (((cfg0.win 1).blk t).view.emb (ix3 p n k)) = V m c main_v2 (ix3 (rowOf t p) n k)
  obtain ⟨-, ⟨e0, e1, e2⟩, -⟩ := idx_facts t
  refine congrArg (V m c main_v2) (funext fun a => Fin.ext ?_)
  match a with
  | ⟨0, _⟩ => show win0_1.index t (0 : Fin 3) * 64 + 1 * p.val = 64 * t.val + p.val; omega
  | ⟨1, _⟩ => show win0_1.index t (1 : Fin 3) * 64 + 1 * n.val = n.val; omega
  | ⟨2, _⟩ => show win0_1.index t (2 : Fin 3) * 8 + 1 * k.val = k.val; omega

theorem blk_w1 (c : Dev nD) (t : Fin cfg0.N) (i : Fin 8) (j : Fin 256) :
    iblk m c 2 t (ix2 i j) = V m c main_arg1 (ix2 i j) := by
  show V m c main_arg1 (((cfg0.win 2).blk t).view.emb (ix2 i j)) = V m c main_arg1 (ix2 i j)
  obtain ⟨-, -, ⟨e0, e1⟩, -⟩ := idx_facts t
  refine congrArg (V m c main_arg1) (funext fun a => Fin.ext ?_)
  match a with
  | ⟨0, _⟩ => show win0_2.index t (0 : Fin 2) * 8 + 1 * i.val = i.val; omega
  | ⟨1, _⟩ => show win0_2.index t (1 : Fin 2) * 256 + 1 * j.val = j.val; omega

theorem blk_b1 (c : Dev nD) (t : Fin cfg0.N) (i : Fin 1) (j : Fin 256) :
    iblk m c 3 t (ix2 i j) = V m c main_v3 (ix2 i j) := by
  show V m c main_v3 (((cfg0.win 3).blk t).view.emb (ix2 i j)) = V m c main_v3 (ix2 i j)
  obtain ⟨-, -, -, ⟨e0, e1⟩, -⟩ := idx_facts t
  refine congrArg (V m c main_v3) (funext fun a => Fin.ext ?_)
  match a with
  | ⟨0, _⟩ => show win0_3.index t (0 : Fin 2) * 1 + 1 * i.val = i.val; omega
  | ⟨1, _⟩ => show win0_3.index t (1 : Fin 2) * 256 + 1 * j.val = j.val; omega

theorem blk_w2 (c : Dev nD) (t : Fin cfg0.N) (i : Fin 256) (j : Fin 257) :
    iblk m c 4 t (ix2 i j) = V m c main_arg3 (ix2 i j) := by
  show V m c main_arg3 (((cfg0.win 4).blk t).view.emb (ix2 i j)) = V m c main_arg3 (ix2 i j)
  obtain ⟨-, -, -, -, ⟨e0, e1⟩, -⟩ := idx_facts t
  refine congrArg (V m c main_arg3) (funext fun a => Fin.ext ?_)
  match a with
  | ⟨0, _⟩ => show win0_4.index t (0 : Fin 2) * 256 + 1 * i.val = i.val; omega
  | ⟨1, _⟩ => show win0_4.index t (1 : Fin 2) * 257 + 1 * j.val = j.val; omega

theorem blk_b2 (c : Dev nD) (t : Fin cfg0.N) (i : Fin 1) (j : Fin 257) :
    iblk m c 5 t (ix2 i j) = V m c main_v4 (ix2 i j) := by
  show V m c main_v4 (((cfg0.win 5).blk t).view.emb (ix2 i j)) = V m c main_v4 (ix2 i j)
  obtain ⟨-, -, -, -, -, ⟨e0, e1⟩, -⟩ := idx_facts t
  refine congrArg (V m c main_v4) (funext fun a => Fin.ext ?_)
  match a with
  | ⟨0, _⟩ => show win0_5.index t (0 : Fin 2) * 1 + 1 * i.val = i.val; omega
  | ⟨1, _⟩ => show win0_5.index t (1 : Fin 2) * 257 + 1 * j.val = j.val; omega

theorem blk_qw1 (c : Dev nD) (t : Fin cfg0.N) (i : Fin 265) (j : Fin 256) :
    iblk m c 6 t (ix2 i j) = V m c main_arg5 (ix2 i j) := by
  show V m c main_arg5 (((cfg0.win 6).blk t).view.emb (ix2 i j)) = V m c main_arg5 (ix2 i j)
  obtain ⟨-, -, -, -, -, -, ⟨e0, e1⟩, -⟩ := idx_facts t
  refine congrArg (V m c main_arg5) (funext fun a => Fin.ext ?_)
  match a with
  | ⟨0, _⟩ => show win0_6.index t (0 : Fin 2) * 265 + 1 * i.val = i.val; omega
  | ⟨1, _⟩ => show win0_6.index t (1 : Fin 2) * 256 + 1 * j.val = j.val; omega

theorem blk_qb1 (c : Dev nD) (t : Fin cfg0.N) (i : Fin 1) (j : Fin 256) :
    iblk m c 7 t (ix2 i j) = V m c main_v5 (ix2 i j) := by
  show V m c main_v5 (((cfg0.win 7).blk t).view.emb (ix2 i j)) = V m c main_v5 (ix2 i j)
  obtain ⟨-, -, -, -, -, -, -, ⟨e0, e1⟩, -⟩ := idx_facts t
  refine congrArg (V m c main_v5) (funext fun a => Fin.ext ?_)
  match a with
  | ⟨0, _⟩ => show win0_7.index t (0 : Fin 2) * 1 + 1 * i.val = i.val; omega
  | ⟨1, _⟩ => show win0_7.index t (1 : Fin 2) * 256 + 1 * j.val = j.val; omega

theorem blk_qw2 (c : Dev nD) (t : Fin cfg0.N) (i : Fin 256) (j : Fin 30) :
    iblk m c 8 t (ix2 i j) = V m c main_arg7 (ix2 i j) := by
  show V m c main_arg7 (((cfg0.win 8).blk t).view.emb (ix2 i j)) = V m c main_arg7 (ix2 i j)
  obtain ⟨-, -, -, -, -, -, -, -, ⟨e0, e1⟩, -⟩ := idx_facts t
  refine congrArg (V m c main_arg7) (funext fun a => Fin.ext ?_)
  match a with
  | ⟨0, _⟩ => show win0_8.index t (0 : Fin 2) * 256 + 1 * i.val = i.val; omega
  | ⟨1, _⟩ => show win0_8.index t (1 : Fin 2) * 30 + 1 * j.val = j.val; omega

theorem blk_qb2 (c : Dev nD) (t : Fin cfg0.N) (i : Fin 1) (j : Fin 30) :
    iblk m c 9 t (ix2 i j) = V m c main_v6 (ix2 i j) := by
  show V m c main_v6 (((cfg0.win 9).blk t).view.emb (ix2 i j)) = V m c main_v6 (ix2 i j)
  obtain ⟨-, -, -, -, -, -, -, -, -, ⟨e0, e1⟩, -⟩ := idx_facts t
  refine congrArg (V m c main_v6) (funext fun a => Fin.ext ?_)
  match a with
  | ⟨0, _⟩ => show win0_9.index t (0 : Fin 2) * 1 + 1 * i.val = i.val; omega
  | ⟨1, _⟩ => show win0_9.index t (1 : Fin 2) * 30 + 1 * j.val = j.val; omega

/-- The output block's position (p, a) at point `t` is the array position (64·t + p, a). -/
theorem emb_out (t : Fin cfg0.N) (p : Fin 64) (a : Fin 30) :
    ((cfg0.win 10).blk t).view.emb (ix2 p a) = ix2 (rowOf t p) a := by
  obtain ⟨-, -, -, -, -, -, -, -, -, -, e0, e1⟩ := idx_facts t
  refine funext fun b => Fin.ext ?_
  match b with
  | ⟨0, _⟩ => show win0_10.index t (0 : Fin 2) * 64 + 1 * p.val = 64 * t.val + p.val; omega
  | ⟨1, _⟩ => show win0_10.index t (1 : Fin 2) * 30 + 1 * a.val = a.val; omega

/-! ## What a point writes back, the cover, the array -/

/-- What point `t` writes back is block `t` of the specification's array. -/
theorem flushed_eq (c : Dev nD) (t : Fin cfg0.N) :
    (dats m 0 c).flushed 10 t = ((cfg0.win 10).blk t).view.read (Elt Ideal) (specArr m c) := by
  rw [Cert.KernelIdeal.Value.flushed10]
  unfold out0_10
  rw [View.canon_unit_zero hz2]
  simp only [View.ld_unit_zero (S := S64x8) hz2, View.ld_unit_zero (S := S64x64x8) hz3, View.ld_unit_zero (S := S8x256) hz2,
    View.ld_unit_zero (S := S1x256) hz2, View.ld_unit_zero (S := S256x257) hz2, View.ld_unit_zero (S := S1x257) hz2,
    View.ld_unit_zero (S := S265x256) hz2, View.ld_unit_zero (S := S256x30) hz2, View.ld_unit_zero (S := S1x30) hz2]
  funext j
  obtain ⟨p, a, rfl⟩ : ∃ (p : Fin 64) (a : Fin 30), j = ix2 p a := ⟨j 0, j 1, eq_ix2 j⟩
  show k0_pay1 (F := Ideal) (k0_pay2 (iblk m c 0 t)) (k0_pay3 (iblk m c 1 t) (iblk m c 2 t) (iblk m c 3 t) (iblk m c 4 t) (iblk m c 5 t))
      (iblk m c 6 t) (iblk m c 7 t) (iblk m c 8 t) (iblk m c 9 t) (ix2 p a)
    = specArr m c (((cfg0.win 10).blk t).view.emb (ix2 p a))
  refine (body_apply (iblk m c 0 t) (iblk m c 1 t) (iblk m c 2 t) (iblk m c 3 t) (iblk m c 4 t) (iblk m c 5 t)
    (iblk m c 6 t) (iblk m c 7 t) (iblk m c 8 t) (iblk m c 9 t) p a).trans ?_
  rw [emb_out]
  simp only [blk_self m c t, blk_surr m c t, blk_w1 m c t, blk_b1 m c t, blk_w2 m c t, blk_b2 m c t, blk_qw1 m c t,
    blk_qb1 m c t, blk_qw2 m c t, blk_qb2 m c t]
  simp only [V_self m c, V_surr m c, V_b1 m c, V_b2 m c, V_qb1 m c, V_qb2 m c, V_main_arg1 m c, V_main_arg3 m c,
    V_main_arg5 m c, V_main_arg7 m c]
  rfl

/-- An index of the result array is in point `t`'s block iff each coordinate is in the block's range on its axis. -/
theorem mem_blk (t : Fin cfg0.N) (i : S8192x30.Idx) :
    i ∈ ((cfg0.win 10).blk t).view.set ↔ ∀ a : Fin 2, win0_10.index t a * S64x30.size a ≤ (i a).val ∧ (i a).val < win0_10.index t a * S64x30.size a + S64x30.size a := by
  show i ∈ ((View.whole main_v7).slice (win0_10.rect t)).set ↔ _
  rw [View.set_slice_whole, Rect.mem_set_unit]
  exact Iff.rfl

/-- Every row of the result lies in the block of the point its row number divided by 64 names. -/
theorem cover (i : S8192x30.Idx) :
    ∃ t : Fin cfg0.N, (cfg0.win 10).flush t = true ∧ i ∈ ((cfg0.win 10).blk t).view.set := by
  have hi0 : (i 0).val < 8192 := (i 0).isLt
  have hi1 : (i 1).val < 30 := (i 1).isLt
  have hN : cfg0.N = 128 := N_0
  have hlt : (i 0).val / 64 < cfg0.N := by omega
  obtain ⟨-, -, -, -, -, -, -, -, -, -, e0, e1⟩ := idx_facts ⟨(i 0).val / 64, hlt⟩
  refine ⟨⟨(i 0).val / 64, hlt⟩, flush0_10 _, ?_⟩
  rw [mem_blk]
  intro a
  match a with
  | ⟨0, _⟩ =>
    show win0_10.index ⟨(i 0).val / 64, hlt⟩ (0 : Fin 2) * 64 ≤ (i 0).val ∧ (i 0).val < win0_10.index ⟨(i 0).val / 64, hlt⟩ (0 : Fin 2) * 64 + 64
    have e0' : win0_10.index ⟨(i 0).val / 64, hlt⟩ (0 : Fin 2) = (i 0).val / 64 := e0
    omega
  | ⟨1, _⟩ =>
    show win0_10.index ⟨(i 0).val / 64, hlt⟩ (1 : Fin 2) * 30 ≤ (i 1).val ∧ (i 1).val < win0_10.index ⟨(i 0).val / 64, hlt⟩ (1 : Fin 2) * 30 + 30
    omega

/-- The result array after the run is the specification's array. -/
theorem final (c : Dev nD) : (dats m 0 c).arrAt 10 cfg0.N = specArr m c :=
  (dats m 0 c).arrAt_eq_of_cover 10 (specArr m c) (fun t _ => flushed_eq m c t) cover

/-- The idealized kernel's run: the result at the specification, the arguments unchanged. -/
theorem run : θ_run defs (onTc (τ := τ) (main (F := Ideal))) ⟨m, fun _ => 0, ρ⟩ fun r => ∀ c : Dev nD,
      r.2.mem ((c : Thread nD τ).loc main_v7) = specArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Body

end
-- ==== Proof.lean ====
/-
  The certificate: the Pallas kernel (per batch row: 64 neighbours through a two-layer ReLU encoder, absent
  neighbours masked by the sentinel test, summed, joined with the row's own state, then a two-layer Q head) against
  its jnp reference.

  Over the extended reals both programs compute the specification `Cert.AgentQ.Q` (Proof/Spec.lean) of the nine
  argument arrays. Kernel side (Proof/KernelValue.lean): each of the 128 grid points writes block t of that array —
  the body's two payloads read at an index (Proof/KernelEnc.lean, Proof/KernelHead.lean: matrix products into a zero
  accumulator are plain sums, the lane and sublane reductions plain sums, the changes of float format the identity,
  the 0/1 mask from "the count of sentinel coordinates is zero" the indicator of "no coordinate is the sentinel"),
  the blocks read through the index maps, the arrays the region finds read through the host slices and reshapes
  (Proof/KernelHost.lean) — and the blocks tile the array. Reference side (Proof/RefPool.lean, Proof/RefHead.lean,
  Proof/RefValue.lean): the host program's stages read at an index give the same function; its mask is the negated
  OR over the coordinates of the same sentinel test. The two sides differ only in how the sums are laid out (a
  [4096, 8] matrix product against a batched contraction, a block of 64 rows against all 8192), never in a law
  that needs finiteness, so the precondition is not opened. The three frames are the generated ones (the
  reference's: its run with the result dropped); the ideal pass rewrote nothing, so `preserves` is `True`.
-/
import proofs.«112311_j9594956939555_1_alg».proof.Defs
import proofs.«112311_j9594956939555_1_alg».proof.Proof.Gen.Kernel
import proofs.«112311_j9594956939555_1_alg».proof.Proof.Gen.Kernel.Skeleton
import proofs.«112311_j9594956939555_1_alg».proof.Proof.Gen.Kernel.Launch
import proofs.«112311_j9594956939555_1_alg».proof.Proof.Gen.Kernel.Points
import proofs.«112311_j9594956939555_1_alg».proof.Proof.Gen.Kernel.Frame
import proofs.«112311_j9594956939555_1_alg».proof.Proof.Gen.KernelIdeal
import proofs.«112311_j9594956939555_1_alg».proof.Proof.Gen.KernelIdeal.Skeleton
import proofs.«112311_j9594956939555_1_alg».proof.Proof.Gen.KernelIdeal.Launch
import proofs.«112311_j9594956939555_1_alg».proof.Proof.Gen.KernelIdeal.Points
import proofs.«112311_j9594956939555_1_alg».proof.Proof.Gen.KernelIdeal.Frame
import proofs.«112311_j9594956939555_1_alg».proof.Proof.Gen.ReferenceIdeal
import proofs.«112311_j9594956939555_1_alg».proof.Proof.Gen.KernelIdeal.Value
import proofs.«112311_j9594956939555_1_alg».proof.Proof.Gen.Pre_finite_inputs
import proofs.«112311_j9594956939555_1_alg».proof.Proof.RefRun
import proofs.«112311_j9594956939555_1_alg».proof.Proof.RefRead
import proofs.«112311_j9594956939555_1_alg».proof.Proof.RefValue
import proofs.«112311_j9594956939555_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both idealized programs end with the specification's array of the arguments they agree on. -/
theorem algebraic : Cert.algebraic_KernelIdeal_ReferenceIdeal := by
  intro m ρ m' ρ' _ hagree
  refine ⟨fun c => Cert.KernelIdeal.Body.specArr m c, Cert.KernelIdeal.Body.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8⟩ := hagree c
  rw [h0, h1, h2, h3, h4, h5, h6, h7, h8, Cert.ReferenceIdeal.ReadP.val_main_v31_eq,
    Cert.ReferenceIdeal.RefValue.result_eq]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
